-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x4x1024 : Shape := ⟨3, ![16384, 4, 1024]⟩
abbrev S4x1024 : Shape := ⟨2, ![4, 1024]⟩
abbrev S1024x512 : Shape := ⟨2, ![1024, 512]⟩
abbrev S512 : Shape := ⟨1, ![512]⟩
abbrev S512x3 : Shape := ⟨2, ![512, 3]⟩
abbrev S3 : Shape := ⟨1, ![3]⟩
abbrev S16384 : Shape := ⟨1, ![16384]⟩
abbrev S16384x4 : Shape := ⟨2, ![16384, 4]⟩
abbrev S_ : Shape := ⟨0, ![]⟩

class Facts : Prop where
  bcast_S_S16384x4x1024 : S_.BroadcastsInDim S16384x4x1024 (![] : Fin 0 → Fin S16384x4x1024.rank)
  reducesTo_S16384x4x1024_S_d0_1_2 : S16384x4x1024.ReducesTo [0, 1, 2] S_
  h_S_ : 0 < S_.numel
  bcast_S_S4x1024 : S_.BroadcastsInDim S4x1024 (![] : Fin 0 → Fin S4x1024.rank)
  reducesTo_S4x1024_S_d0_1 : S4x1024.ReducesTo [0, 1] S_
  bcast_S_S1024x512 : S_.BroadcastsInDim S1024x512 (![] : Fin 0 → Fin S1024x512.rank)
  reducesTo_S1024x512_S_d0_1 : S1024x512.ReducesTo [0, 1] S_
  bcast_S_S512 : S_.BroadcastsInDim S512 (![] : Fin 0 → Fin S512.rank)
  reducesTo_S512_S_d0 : S512.ReducesTo [0] S_
  bcast_S_S512x3 : S_.BroadcastsInDim S512x3 (![] : Fin 0 → Fin S512x3.rank)
  reducesTo_S512x3_S_d0_1 : S512x3.ReducesTo [0, 1] S_
  bcast_S_S3 : S_.BroadcastsInDim S3 (![] : Fin 0 → Fin S3.rank)
  reducesTo_S3_S_d0 : S3.ReducesTo [0] S_

variable [Facts]

def fn_part1 {F : FTy → Type} [FloatOps F] (main_arg4 : FVec F S512x3 .f32) (main_arg5 : FVec F S3 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x3 .f32 := Host.absf main_arg4
  let main_cst_6 : FVec F S_ .f32 := constant S_ .f32 0x7F800000#32
  let main_v20 : FVec F S512x3 .f32 := broadcastInDim S512x3 ![] bcast_S_S512x3 main_cst_6
  let main_v21 : IVec S512x3 1 := cmpf .olt main_v19 main_v20
  let main_c_7 : IVec S_ 1 := constantI S_ 1 1#1
  let main_v22 : IVec S_ 1 := (fun x v => Host.reduce IntOp.andi x v reducesTo_S512x3_S_d0_1 h_S_) main_v21 main_c_7
  let main_v23 : IVec S_ 1 := andi main_v18 main_v22
  let main_v24 : FVec F S3 .f32 := Host.absf main_arg5
  let main_cst_8 : FVec F S_ .f32 := constant S_ .f32 0x7F800000#32
  let main_v25 : FVec F S3 .f32 := broadcastInDim S3 ![] bcast_S_S3 main_cst_8
  let main_v26 : IVec S3 1 := cmpf .olt main_v24 main_v25
  let main_c_9 : IVec S_ 1 := constantI S_ 1 1#1
  let main_v27 : IVec S_ 1 := (fun x v => Host.reduce IntOp.andi x v reducesTo_S3_S_d0 h_S_) main_v26 main_c_9
  let main_v28 : IVec S_ 1 := andi main_v23 main_v27
  main_v28

def fn {F : FTy → Type} [FloatOps F] (main_arg0 : FVec F S16384x4x1024 .f32) (main_arg1 : FVec F S4x1024 .f32) (main_arg2 : FVec F S1024x512 .f32) (main_arg3 : FVec F S512 .f32) (main_arg4 : FVec F S512x3 .f32) (main_arg5 : FVec F S3 .f32) (main_arg6 : IVec S16384 32) (main_arg7 : IVec S16384x4 32) : IVec S_ 1 :=
  let main_v0 : FVec F S16384x4x1024 .f32 := Host.absf main_arg0
  let main_cst : FVec F S_ .f32 := constant S_ .f32 0x7F800000#32
  let main_v1 : FVec F S16384x4x1024 .f32 := broadcastInDim S16384x4x1024 ![] bcast_S_S16384x4x1024 main_cst
  let main_v2 : IVec S16384x4x1024 1 := cmpf .olt main_v0 main_v1
  let main_c : IVec S_ 1 := constantI S_ 1 1#1
  let main_v3 : IVec S_ 1 := (fun x v => Host.reduce IntOp.andi x v reducesTo_S16384x4x1024_S_d0_1_2 h_S_) main_v2 main_c
  let main_v4 : FVec F S4x1024 .f32 := Host.absf main_arg1
  let main_cst_0 : FVec F S_ .f32 := constant S_ .f32 0x7F800000#32
  let main_v5 : FVec F S4x1024 .f32 := broadcastInDim S4x1024 ![] bcast_S_S4x1024 main_cst_0
  let main_v6 : IVec S4x1024 1 := cmpf .olt main_v4 main_v5
  let main_c_1 : IVec S_ 1 := constantI S_ 1 1#1
  let main_v7 : IVec S_ 1 := (fun x v => Host.reduce IntOp.andi x v reducesTo_S4x1024_S_d0_1 h_S_) main_v6 main_c_1
  let main_v8 : IVec S_ 1 := andi main_v3 main_v7
  let main_v9 : FVec F S1024x512 .f32 := Host.absf main_arg2
  let main_cst_2 : FVec F S_ .f32 := constant S_ .f32 0x7F800000#32
  let main_v10 : FVec F S1024x512 .f32 := broadcastInDim S1024x512 ![] bcast_S_S1024x512 main_cst_2
  let main_v11 : IVec S1024x512 1 := cmpf .olt main_v9 main_v10
  let main_c_3 : IVec S_ 1 := constantI S_ 1 1#1
  let main_v12 : IVec S_ 1 := (fun x v => Host.reduce IntOp.andi x v reducesTo_S1024x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_v13 main_v16
-- ==== Kernel.lean ====
abbrev S16384x4x1024 : Shape := ⟨3, ![16384, 4, 1024]⟩
abbrev S4x1024 : Shape := ⟨2, ![4, 1024]⟩
abbrev S1024x512 : Shape := ⟨2, ![1024, 512]⟩
abbrev S512 : Shape := ⟨1, ![512]⟩
abbrev S512x3 : Shape := ⟨2, ![512, 3]⟩
abbrev S3 : Shape := ⟨1, ![3]⟩
abbrev S16384 : Shape := ⟨1, ![16384]⟩
abbrev S16384x4 : Shape := ⟨2, ![16384, 4]⟩
abbrev S16384x4x1 : Shape := ⟨3, ![16384, 4, 1]⟩
abbrev S16384x1x4 : Shape := ⟨3, ![16384, 1, 4]⟩
abbrev S16384x4x4 : Shape := ⟨3, ![16384, 4, 4]⟩
abbrev S_ : Shape := ⟨0, ![]⟩
abbrev S4x4 : Shape := ⟨2, ![4, 4]⟩
abbrev S1x4x4 : Shape := ⟨3, ![1, 4, 4]⟩
abbrev S4 : Shape := ⟨1, ![4]⟩
abbrev S1x4 : Shape := ⟨2, ![1, 4]⟩
abbrev S16384x1 : Shape := ⟨2, ![16384, 1]⟩
abbrev S16384x4x3 : Shape := ⟨3, ![16384, 4, 3]⟩
abbrev S256x4x1024 : Shape := ⟨3, ![256, 4, 1024]⟩
abbrev S256x4 : Shape := ⟨2, ![256, 4]⟩
abbrev S256x4x3 : Shape := ⟨3, ![256, 4, 3]⟩
abbrev S1x1024 : Shape := ⟨2, ![1, 1024]⟩
abbrev S1024 : Shape := ⟨1, ![1024]⟩
abbrev S256x4x1 : Shape := ⟨3, ![256, 4, 1]⟩
abbrev S1x1x1024 : Shape := ⟨3, ![1, 1, 1024]⟩
abbrev S1024x1024 : Shape := ⟨2, ![1024, 1024]⟩
abbrev S1x512 : Shape := ⟨2, ![1, 512]⟩
abbrev S1024x3 : Shape := ⟨2, ![1024, 3]⟩
abbrev S1x3 : Shape := ⟨2, ![1, 3]⟩

abbrev nBuf : Space → Nat
  | .hbm => 45
  | .vmem => 13
  | .smem => 0
  | _ => 0

abbrev bufTy : (tb : Table) → Fin (tcTables nBuf tb) → BufTy
  | .hbm, ⟨0, _⟩ => ⟨S16384x4x1024, .f32⟩
  | .hbm, ⟨1, _⟩ => ⟨S4x1024, .f32⟩
  | .hbm, ⟨2, _⟩ => ⟨S1024x512, .f32⟩
  | .hbm, ⟨3, _⟩ => ⟨S512, .f32⟩
  | .hbm, ⟨4, _⟩ => ⟨S512x3, .f32⟩
  | .hbm, ⟨5, _⟩ => ⟨S3, .f32⟩
  | .hbm, ⟨6, _⟩ => ⟨S16384, .i32⟩
  | .hbm, ⟨7, _⟩ => ⟨S16384x4, .i32⟩
  | .hbm, ⟨8, _⟩ => ⟨S16384x4x1, .i32⟩
  | .hbm, ⟨9, _⟩ => ⟨S16384x1x4, .i32⟩
  | .hbm, ⟨10, _⟩ => ⟨S16384x4x4, .i32⟩
  | .hbm, ⟨11, _⟩ => ⟨S16384x4x4, .i32⟩
  | .hbm, ⟨12, _⟩ => ⟨S16384x4x4, .i1⟩
  | .hbm, ⟨13, _⟩ => ⟨S_, .i1⟩
  | .hbm, ⟨14, _⟩ => ⟨S4x4, .i1⟩
  | .hbm, ⟨15, _⟩ => ⟨S4x4, .i32⟩
  | .hbm, ⟨16, _⟩ => ⟨S_, .i32⟩
  | .hbm, ⟨17, _⟩ => ⟨S4x4, .i32⟩
  | .hbm, ⟨18, _⟩ => ⟨S4x4, .i32⟩
  | .hbm, ⟨19, _⟩ => ⟨S4x4, .i32⟩
  | .hbm, ⟨20, _⟩ => ⟨S4x4, .i1⟩
  | .hbm, ⟨21, _⟩ => ⟨S_, .i1⟩
  | .hbm, ⟨22, _⟩ => ⟨S4x4, .i1⟩
  | .hbm, ⟨23, _⟩ => ⟨S4x4, .i1⟩
  | .hbm, ⟨24, _⟩ => ⟨S1x4x4, .i1⟩
  | .hbm, ⟨25, _⟩ => ⟨S16384x4x4, .i1⟩
  | .hbm, ⟨26, _⟩ => ⟨S16384x4x4, .i1⟩
  | .hbm, ⟨27, _⟩ => ⟨S16384x4x4, .i32⟩
  | .hbm, ⟨28, _⟩ => ⟨S_, .i32⟩
  | .hbm, ⟨29, _⟩ => ⟨S16384x4, .i32⟩
  | .hbm, ⟨30, _⟩ => ⟨S_, .i32⟩
  | .hbm, ⟨31, _⟩ => ⟨S16384x4, .i32⟩
  | .hbm, ⟨32, _⟩ => ⟨S16384x4, .i1⟩
  | .hbm, ⟨33, _⟩ => ⟨S_, .i32⟩
  | .hbm, ⟨34, _⟩ => ⟨S_, .i32⟩
  | .hbm, ⟨35, _⟩ => ⟨S16384x4, .i32⟩
  | .hbm, ⟨36, _⟩ => ⟨S16384x4, .i32⟩
  | .hbm, ⟨37, _⟩ => ⟨S4, .i32⟩
  | .hbm, ⟨38, _⟩ => ⟨S1x4, .i32⟩
  | .hbm, ⟨39, _⟩ => ⟨S16384x1, .i32⟩
  | .hbm, ⟨40, _⟩ => ⟨S16384x4, .i32⟩
  | .hbm, ⟨41, _⟩ => ⟨S16384x4, .i32⟩
  | .hbm, ⟨42, _⟩ => ⟨S16384x4, .i1⟩
  | .hbm, ⟨43, _⟩ => ⟨S16384x4, .f32⟩
  | .hbm, ⟨44, _⟩ => ⟨S16384x4x3, .f32⟩
  | .local _ .vmem, ⟨0, _⟩ => ⟨S256x4x1024, .f32⟩
  | .local _ .vmem, ⟨1, _⟩ => ⟨S256x4x1024, .f32⟩
  | .local _ .vmem, ⟨2, _⟩ => ⟨S256x4, .i32⟩
  | .local _ .vmem, ⟨3, _⟩ => ⟨S256x4, .i32⟩
  | .local _ .vmem, ⟨4, _⟩ => ⟨S256x4, .f32⟩
  | .local _ .vmem, ⟨5, _⟩ => ⟨S256x4, .f32⟩
  | .local _ .vmem, ⟨6, _⟩ => ⟨S4x1024, .f32⟩
  | .local _ .vmem, ⟨7, _⟩ => ⟨S1024x512, .f32⟩
  | .local _ .vmem, ⟨8, _⟩ => ⟨S512, .f32⟩
  | .local _ .vmem, ⟨9, _⟩ => ⟨S512x3, .f32⟩
  | .local _ .vmem, ⟨10, _⟩ => ⟨S3, .f32⟩
  | .local _ .vmem, ⟨11, _⟩ => ⟨S256x4x3, .f32⟩
  | .local _ .vmem, ⟨12, _⟩ => ⟨S256x4x3, .f32⟩
  | _, _ => ⟨S16384x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c : Ref sig .tc := ⟨.hbm, 13, rfl⟩
abbrev main_v5 : Ref sig .tc := ⟨.hbm, 14, rfl⟩
abbrev main_call0_v0 : Ref sig .tc := ⟨.hbm, 15, rfl⟩
abbrev main_call0_c : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_c_0 : Ref sig .tc := ⟨.hbm, 21, rfl⟩
abbrev main_call0_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_c_0 : Ref sig .tc := ⟨.hbm, 28, rfl⟩
abbrev main_v11 : Ref sig .tc := ⟨.hbm, 29, rfl⟩
abbrev main_c_1 : Ref sig .tc := ⟨.hbm, 30, rfl⟩
abbrev main_v12 : Ref sig .tc := ⟨.hbm, 31, rfl⟩
abbrev main_v13 : Ref sig .tc := ⟨.hbm, 32, rfl⟩
abbrev main_c_2 : Ref sig .tc := ⟨.hbm, 33, rfl⟩
abbrev main_call1_v0 : Ref sig .tc := ⟨.hbm, 34, rfl⟩
abbrev main_call1_v1 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x4x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x4 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x3 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S3 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x4x3 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  bcast_S16384x4_S16384x4x1_0_1 : S16384x4.BroadcastsInDim S16384x4x1 (![0, 1] : Fin 2 → Fin S16384x4x1.rank)
  bcast_S16384x4_S16384x1x4_0_2 : S16384x4.BroadcastsInDim S16384x1x4 (![0, 2] : Fin 2 → Fin S16384x1x4.rank)
  bcast_S16384x4x1_S16384x4x4_0_1_2 : S16384x4x1.BroadcastsInDim S16384x4x4 (![0, 1, 2] : Fin 3 → Fin S16384x4x4.rank)
  bcast_S16384x1x4_S16384x4x4_0_1_2 : S16384x1x4.BroadcastsInDim S16384x4x4 (![0, 1, 2] : Fin 3 → Fin S16384x4x4.rank)
  bcast_S_S4x4 : S_.BroadcastsInDim S4x4 (![] : Fin 0 → Fin S4x4.rank)
  bcast_S4x4_S1x4x4_1_2 : S4x4.BroadcastsInDim S1x4x4 (![1, 2] : Fin 2 → Fin S1x4x4.rank)
  bcast_S1x4x4_S16384x4x4_0_1_2 : S1x4x4.BroadcastsInDim S16384x4x4 (![0, 1, 2] : Fin 3 → Fin S16384x4x4.rank)
  natLt_1_32 : 1 < 32
  reducesTo_S16384x4x4_S16384x4_d2 : S16384x4x4.ReducesTo [2] S16384x4
  h_S_ : 0 < S_.numel
  bcast_S_S16384x4 : S_.BroadcastsInDim S16384x4 (![] : Fin 0 → Fin S16384x4.rank)
  bcast_S4_S1x4_1 : S4.BroadcastsInDim S1x4 (![1] : Fin 1 → Fin S1x4.rank)
  bcast_S16384_S16384x1_0 : S16384.BroadcastsInDim S16384x1 (![0] : Fin 1 → Fin S16384x1.rank)
  bcast_S1x4_S16384x4_0_1 : S1x4.BroadcastsInDim S16384x4 (![0, 1] : Fin 2 → Fin S16384x4.rank)
  bcast_S16384x1_S16384x4_0_1 : S16384x1.BroadcastsInDim S16384x4 (![0, 1] : Fin 2 → Fin S16384x4.rank)
  inb_S256x4x1024_S256x4x1024_0_0_0 : ∀ a, (![0, 0, 0] : Fin 3 → Nat) a + S256x4x1024.size a ≤ S256x4x1024.size a
  h_S256x4x1024 : 0 < S256x4x1024.numel
  inb_S256x4_S256x4_0_0 : ∀ a, (![0, 0] : Fin 2 → Nat) a + S256x4.size a ≤ S256x4.size a
  h_S256x4 : 0 < S256x4.numel
  shapeCasts_S256x4_S256x4 : S256x4.ShapeCasts S256x4
  inb_S4x1024_S1x1024_0_0 : ∀ a, (![0, 0] : Fin 2 → Nat) a + S1x1024.size a ≤ S4x1024.size a
  h_S1x1024 : 0 < S1x1024.numel
  shapeCasts_S1x1024_S1024 : S1x1024.ShapeCasts S1024
  shapeCasts_S256x4_S256x4x1 : S256x4.ShapeCasts S256x4x1
  shapeCasts_S1024_S1x1x1024 : S1024.ShapeCasts S1x1x1024
  broadcasts_S256x4x1_S256x4x1024 : S256x4x1.Broadcasts S256x4x1024
  broadcasts_S1x1x1024_S256x4x1024 : S1x1x1024.Broadcasts S256x4x1024
  inb_S4x1024_S1x1024_1_0 : ∀ a, (![1, 0] : Fin 2 → Nat) a + S1x1024.size a ≤ S4x1024.size a
  inb_S4x1024_S1x1024_2_0 : ∀ a, (![2, 0] : Fin 2 → Nat) a + S1x1024.size a ≤ S4x1024.size a
  inb_S4x1024_S1x1024_3_0 : ∀ a, (![3, 0] : Fin 2 → Nat) a + S1x1024.size a ≤ S4x1024.size a
  shapeCasts_S256x4x1024_S1024x1024 : S256x4x1024.ShapeCasts S1024x1024
  bitsLt_bf16_f32 : FTy.bits .bf16 < FTy.bits .f32
  inb_S1024x512_S1024x512_0_0 : ∀ a, (![0, 0] : Fin 2 → Nat) a + S1024x512.size a ≤ S1024x512.size a
  h_S1024x512 : 0 < S1024x512.numel
  inb_S512_S512_0 : ∀ a, (![0] : Fin 1 → Nat) a + S512.size a ≤ S512.size a
  h_S512 : 0 < S512.numel
  shapeCasts_S512_S1x512 : S512.ShapeCasts S1x512
  broadcasts_S1x512_S1024x512 : S1x512.Broadcasts S1024x512
  inb_S512x3_S512x3_0_0 : ∀ a, (![0, 0] : Fin 2 → Nat) a + S512x3.size a ≤ S512x3.size a
  h_S512x3 : 0 < S512x3.numel
  inb_S3_S3_0 : ∀ a, (![0] : Fin 1 → Nat) a + S3.size a ≤ S3.size a
  h_S3 : 0 < S3.numel
  shapeCasts_S3_S1x3 : S3.ShapeCasts S1x3
  broadcasts_S1x3_S1024x3 : S1x3.Broadcasts S1024x3
  shapeCasts_S1024x3_S256x4x3 : S1024x3.ShapeCasts S256x4x3
  inb_S256x4x3_S256x4x3_0_0_0 : ∀ a, (![0, 0, 0] : Fin 3 → Nat) a + S256x4x3.size a ≤ S256x4x3.size a
  h_S256x4x3 : 0 < S256x4x3.numel
  dot_S1024x1024_S1024x512_S1024x512_1_0_0_1_n_n_wf : DotDims.WF S1024x1024 S1024x512 S1024x512 [1] [0] [0] [1] [] []
  dot_S1024x512_S512x3_S1024x3_1_0_0_1_n_n_wf : DotDims.WF S1024x512 S512x3 S1024x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4x1024.size a ≤ S16384x4x1024.size a
  hwx0_0 : ∀ i : grid0.Coords, EltTy.bits .f32 = 32 ∨ (Rect.block (s := S16384x4x1024) S256x4x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4.size a ≤ S16384x4.size a
  hwx0_1 : ∀ i : grid0.Coords, EltTy.bits .i32 = 32 ∨ (Rect.block (s := S16384x4) S256x4.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x4.size a ≤ S16384x4.size a
  hwx0_2 : ∀ i : grid0.Coords, EltTy.bits .f32 = 32 ∨ (Rect.block (s := S16384x4) S256x4.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4x1024.size a ≤ S4x1024.size a
  hwx0_3 : ∀ i : grid0.Coords, EltTy.bits .f32 = 32 ∨ (Rect.block (s := S4x1024) S4x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x512.size a ≤ S1024x512.size a
  hwx0_4 : ∀ i : grid0.Coords, EltTy.bits .f32 = 32 ∨ (Rect.block (s := S1024x512) S1024x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512.size a ≤ S512.size a
  hwx0_5 : ∀ i : grid0.Coords, EltTy.bits .f32 = 32 ∨ (Rect.block (s := S512) S512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512x3.size a ≤ S512x3.size a
  hwx0_6 : ∀ i : grid0.Coords, EltTy.bits .f32 = 32 ∨ (Rect.block (s := S512x3) S512x3.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S3.size a ≤ S3.size a
  hwx0_7 : ∀ i : grid0.Coords, EltTy.bits .f32 = 32 ∨ (Rect.block (s := S3) S3.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S256x4x3.size a ≤ S16384x4x3.size a
  hwx0_8 : ∀ i : grid0.Coords, EltTy.bits .f32 = 32 ∨ (Rect.block (s := S16384x4x3) S256x4x3.size (cc0_transform_8 i) (hinb0_8 i)).WholeWords (EltTy.packing .f32)

variable [Facts₀]

def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf
def dot_S1024x512_S512x3_S1024x3_1_0_0_1_n_n : DotDims S1024x512 S512x3 S1024x3 where
  lhsContracting := [1]
  rhsContracting := [0]
  lhsNonContracting := [0]
  rhsNonContracting := [1]
  lhsBatch := []
  rhsBatch := []
  wf := dot_S1024x512_S512x3_S1024x3_1_0_0_1_n_n_wf

abbrev win0_0 : Pipeline.Window sig grid0 :=
  Pipeline.Window.ofSpec (Memref.whole main_arg0) S256x4x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S256x4.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v21) S256x4.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S4x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S1024x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg3) S512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg4) S512x3.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg5) S3.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v22) S256x4x3.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S16384x4x1024 : Shape := ⟨3, ![16384, 4, 1024]⟩
abbrev S4x1024 : Shape := ⟨2, ![4, 1024]⟩
abbrev S1024x512 : Shape := ⟨2, ![1024, 512]⟩
abbrev S512 : Shape := ⟨1, ![512]⟩
abbrev S512x3 : Shape := ⟨2, ![512, 3]⟩
abbrev S3 : Shape := ⟨1, ![3]⟩
abbrev S16384 : Shape := ⟨1, ![16384]⟩
abbrev S16384x4 : Shape := ⟨2, ![16384, 4]⟩
abbrev S16384x4x1 : Shape := ⟨3, ![16384, 4, 1]⟩
abbrev S16384x1x4 : Shape := ⟨3, ![16384, 1, 4]⟩
abbrev S16384x4x4 : Shape := ⟨3, ![16384, 4, 4]⟩
abbrev S_ : Shape := ⟨0, ![]⟩
abbrev S4x4 : Shape := ⟨2, ![4, 4]⟩
abbrev S1x4x4 : Shape := ⟨3, ![1, 4, 4]⟩
abbrev S4 : Shape := ⟨1, ![4]⟩
abbrev S1x4 : Shape := ⟨2, ![1, 4]⟩
abbrev S16384x1 : Shape := ⟨2, ![16384, 1]⟩
abbrev S16384x4x512 : Shape := ⟨3, ![16384, 4, 512]⟩
abbrev S1x1x512 : Shape := ⟨3, ![1, 1, 512]⟩
abbrev S16384x4x3 : Shape := ⟨3, ![16384, 4, 3]⟩
abbrev S1x1x3 : Shape := ⟨3, ![1, 1, 3]⟩

abbrev nBuf : Space → Nat
  | .hbm => 70
  | .vmem => 0
  | .smem => 0
  | _ => 0

abbrev bufTy : (tb : Table) → Fin (tcTables nBuf tb) → BufTy
  | .hbm, ⟨0, _⟩ => ⟨S16384x4x1024, .f32⟩
  | .hbm, ⟨1, _⟩ => ⟨S4x1024, .f32⟩
  | .hbm, ⟨2, _⟩ => ⟨S1024x512, .f32⟩
  | .hbm, ⟨3, _⟩ => ⟨S512, .f32⟩
  | .hbm, ⟨4, _⟩ => ⟨S512x3, .f32⟩
  | .hbm, ⟨5, _⟩ => ⟨S3, .f32⟩
  | .hbm, ⟨6, _⟩ => ⟨S16384, .i32⟩
  | .hbm, ⟨7, _⟩ => ⟨S16384x4, .i32⟩
  | .hbm, ⟨8, _⟩ => ⟨S16384x4x1, .i32⟩
  | .hbm, ⟨9, _⟩ => ⟨S16384x1x4, .i32⟩
  | .hbm, ⟨10, _⟩ => ⟨S16384x4x4, .i32⟩
  | .hbm, ⟨11, _⟩ => ⟨S16384x4x4, .i32⟩
  | .hbm, ⟨12, _⟩ => ⟨S16384x4x4, .i1⟩
  | .hbm, ⟨13, _⟩ => ⟨S_, .i1⟩
  | .hbm, ⟨14, _⟩ => ⟨S4x4, .i1⟩
  | .hbm, ⟨15, _⟩ => ⟨S4x4, .i32⟩
  | .hbm, ⟨16, _⟩ => ⟨S_, .i32⟩
  | .hbm, ⟨17, _⟩ => ⟨S4x4, .i32⟩
  | .hbm, ⟨18, _⟩ => ⟨S4x4, .i32⟩
  | .hbm, ⟨19, _⟩ => ⟨S4x4, .i32⟩
  | .hbm, ⟨20, _⟩ => ⟨S4x4, .i1⟩
  | .hbm, ⟨21, _⟩ => ⟨S_, .i1⟩
  | .hbm, ⟨22, _⟩ => ⟨S4x4, .i1⟩
  | .hbm, ⟨23, _⟩ => ⟨S4x4, .i1⟩
  | .hbm, ⟨24, _⟩ => ⟨S1x4x4, .i1⟩
  | .hbm, ⟨25, _⟩ => ⟨S16384x4x4, .i1⟩
  | .hbm, ⟨26, _⟩ => ⟨S16384x4x4, .i1⟩
  | .hbm, ⟨27, _⟩ => ⟨S16384x4x4, .i32⟩
  | .hbm, ⟨28, _⟩ => ⟨S_, .i32⟩
  | .hbm, ⟨29, _⟩ => ⟨S16384x4, .i32⟩
  | .hbm, ⟨30, _⟩ => ⟨S_, .i32⟩
  | .hbm, ⟨31, _⟩ => ⟨S16384x4, .i32⟩
  | .hbm, ⟨32, _⟩ => ⟨S16384x4, .i1⟩
  | .hbm, ⟨33, _⟩ => ⟨S16384x4x1, .i1⟩
  | .hbm, ⟨34, _⟩ => ⟨S_, .i32⟩
  | .hbm, ⟨35, _⟩ => ⟨S16384x4, .i32⟩
  | .hbm, ⟨36, _⟩ => ⟨S16384x4, .i1⟩
  | .hbm, ⟨37, _⟩ => ⟨S_, .i32⟩
  | .hbm, ⟨38, _⟩ => ⟨S16384x4, .i32⟩
  | .hbm, ⟨39, _⟩ => ⟨S16384x4, .i32⟩
  | .hbm, ⟨40, _⟩ => ⟨S16384x4, .i32⟩
  | .hbm, ⟨41, _⟩ => ⟨S16384x4x1, .i32⟩
  | .hbm, ⟨42, _⟩ => ⟨S16384x4x1024, .f32⟩
  | .hbm, ⟨43, _⟩ => ⟨S_, .f32⟩
  | .hbm, ⟨44, _⟩ => ⟨S_, .f32⟩
  | .hbm, ⟨45, _⟩ => ⟨S16384x4x1024, .i1⟩
  | .hbm, ⟨46, _⟩ => ⟨S16384x4x1024, .f32⟩
  | .hbm, ⟨47, _⟩ => ⟨S16384x4x1024, .f32⟩
  | .hbm, ⟨48, _⟩ => ⟨S4, .i32⟩
  | .hbm, ⟨49, _⟩ => ⟨S1x4, .i32⟩
  | .hbm, ⟨50, _⟩ => ⟨S16384x1, .i32⟩
  | .hbm, ⟨51, _⟩ => ⟨S16384x4, .i32⟩
  | .hbm, ⟨52, _⟩ => ⟨S16384x4, .i32⟩
  | .hbm, ⟨53, _⟩ => ⟨S16384x4, .i1⟩
  | .hbm, ⟨54, _⟩ => ⟨S16384x4x1, .i1⟩
  | .hbm, ⟨55, _⟩ => ⟨S16384x4x1024, .f32⟩
  | .hbm, ⟨56, _⟩ => ⟨S_, .f32⟩
  | .hbm, ⟨57, _⟩ => ⟨S_, .f32⟩
  | .hbm, ⟨58, _⟩ => ⟨S16384x4x1024, .i1⟩
  | .hbm, ⟨59, _⟩ => ⟨S16384x4x1024, .f32⟩
  | .hbm, ⟨60, _⟩ => ⟨S16384x4x1024, .f32⟩
  | .hbm, ⟨61, _⟩ => ⟨S16384x4x512, .f32⟩
  | .hbm, ⟨62, _⟩ => ⟨S1x1x512, .f32⟩
  | .hbm, ⟨63, _⟩ => ⟨S16384x4x512, .f32⟩
  | .hbm, ⟨64, _⟩ => ⟨S16384x4x512, .f32⟩
  | .hbm, ⟨65, _⟩ => ⟨S16384x4x512, .f32⟩
  | .hbm, ⟨66, _⟩ => ⟨S16384x4x3, .f32⟩
  | .hbm, ⟨67, _⟩ => ⟨S1x1x3, .f32⟩
  | .hbm, ⟨68, _⟩ => ⟨S16384x4x3, .f32⟩
  | .hbm, ⟨69, _⟩ => ⟨S16384x4x3, .f32⟩
  | _, _ => ⟨S16384x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c : Ref sig .tc := ⟨.hbm, 13, rfl⟩
abbrev main_v5 : Ref sig .tc := ⟨.hbm, 14, rfl⟩
abbrev main_call0_v0 : Ref sig .tc := ⟨.hbm, 15, rfl⟩
abbrev main_call0_c : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_c_0 : Ref sig .tc := ⟨.hbm, 21, rfl⟩
abbrev main_call0_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_c_0 : Ref sig .tc := ⟨.hbm, 28, rfl⟩
abbrev main_v11 : Ref sig .tc := ⟨.hbm, 29, rfl⟩
abbrev main_c_1 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_c_2 : Ref sig .tc := ⟨.hbm, 34, rfl⟩
abbrev main_v15 : Ref sig .tc := ⟨.hbm, 35, rfl⟩
abbrev main_v16 : Ref sig .tc := ⟨.hbm, 36, rfl⟩
abbrev main_c_3 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_cst : Ref sig .tc := ⟨.hbm, 43, rfl⟩
abbrev main_call1_v0 : Ref sig .tc := ⟨.hbm, 44, rfl⟩
abbrev main_call1_v1 : Ref sig .tc := ⟨.hbm, 45, rfl⟩
abbrev main_call1_v2 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_cst_4 : Ref sig .tc := ⟨.hbm, 56, rfl⟩
abbrev main_call2_v0 : Ref sig .tc := ⟨.hbm, 57, rfl⟩
abbrev main_call2_v1 : Ref sig .tc := ⟨.hbm, 58, rfl⟩
abbrev main_call2_v2 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩

abbrev nD : Nat := 1
abbrev τ : Topo := Topo.v7x

variable {F : FTy → Type} [FloatOps F]

class Facts₀ : Prop where
  bcast_S16384x4_S16384x4x1_0_1 : S16384x4.BroadcastsInDim S16384x4x1 (![0, 1] : Fin 2 → Fin S16384x4x1.rank)
  bcast_S16384x4_S16384x1x4_0_2 : S16384x4.BroadcastsInDim S16384x1x4 (![0, 2] : Fin 2 → Fin S16384x1x4.rank)
  bcast_S16384x4x1_S16384x4x4_0_1_2 : S16384x4x1.BroadcastsInDim S16384x4x4 (![0, 1, 2] : Fin 3 → Fin S16384x4x4.rank)
  bcast_S16384x1x4_S16384x4x4_0_1_2 : S16384x1x4.BroadcastsInDim S16384x4x4 (![0, 1, 2] : Fin 3 → Fin S16384x4x4.rank)
  bcast_S_S4x4 : S_.BroadcastsInDim S4x4 (![] : Fin 0 → Fin S4x4.rank)
  bcast_S4x4_S1x4x4_1_2 : S4x4.BroadcastsInDim S1x4x4 (![1, 2] : Fin 2 → Fin S1x4x4.rank)
  bcast_S1x4x4_S16384x4x4_0_1_2 : S1x4x4.BroadcastsInDim S16384x4x4 (![0, 1, 2] : Fin 3 → Fin S16384x4x4.rank)
  natLt_1_32 : 1 < 32
  reducesTo_S16384x4x4_S16384x4_d2 : S16384x4x4.ReducesTo [2] S16384x4
  h_S_ : 0 < S_.numel
  bcast_S_S16384x4 : S_.BroadcastsInDim S16384x4 (![] : Fin 0 → Fin S16384x4.rank)
  bcast_S16384x4x1_S16384x4x1024_0_1_2 : S16384x4x1.BroadcastsInDim S16384x4x1024 (![0, 1, 2] : Fin 3 → Fin S16384x4x1024.rank)
  bcast_S_S16384x4x1024 : S_.BroadcastsInDim S16384x4x1024 (![] : Fin 0 → Fin S16384x4x1024.rank)
  bcast_S4_S1x4_1 : S4.BroadcastsInDim S1x4 (![1] : Fin 1 → Fin S1x4.rank)
  bcast_S16384_S16384x1_0 : S16384.BroadcastsInDim S16384x1 (![0] : Fin 1 → Fin S16384x1.rank)
  bcast_S1x4_S16384x4_0_1 : S1x4.BroadcastsInDim S16384x4 (![0, 1] : Fin 2 → Fin S16384x4.rank)
  bcast_S16384x1_S16384x4_0_1 : S16384x1.BroadcastsInDim S16384x4 (![0, 1] : Fin 2 → Fin S16384x4.rank)
  bcast_S512_S1x1x512_2 : S512.BroadcastsInDim S1x1x512 (![2] : Fin 1 → Fin S1x1x512.rank)
  bcast_S1x1x512_S16384x4x512_0_1_2 : S1x1x512.BroadcastsInDim S16384x4x512 (![0, 1, 2] : Fin 3 → Fin S16384x4x512.rank)
  bcast_S3_S1x1x3_2 : S3.BroadcastsInDim S1x1x3 (![2] : Fin 1 → Fin S1x1x3.rank)
  bcast_S1x1x3_S16384x4x3_0_1_2 : S1x1x3.BroadcastsInDim S16384x4x3 (![0, 1, 2] : Fin 3 → Fin S16384x4x3.rank)
  gather_S4x1024_S16384x4x1_S16384x4x1024_2_0_n_n_0_2_11024_wf : GatherDims.WF S4x1024 S16384x4x1 S16384x4x1024 [2] [0] [] [0] [] 2 ![1, 1024]
  dot_S16384x4x1024_S1024x512_S16384x4x512_2_0_01_1_n_n_wf : DotDims.WF S16384x4x1024 S1024x512 S16384x4x512 [2] [0] [0, 1] [1] [] []
  dot_S16384x4x512_S512x3_S16384x4x3_2_0_01_1_n_n_wf : DotDims.WF S16384x4x512 S512x3 S16384x4x3 [2] [0] [0, 1] [1] [] []

variable [Facts₀]

def gather_S4x1024_S16384x4x1_S16384x4x1024_2_0_n_n_0_2_11024 : GatherDims S4x1024 S16384x4x1 S16384x4x1024 where
  offsetDims := [2]
  collapsedSliceDims := [0]
  operandBatchingDims := []
  startIndicesBatchingDims := []
  startIndexMap := [0]
  indexVectorDim := 2
  sliceSizes := ![1, 1024]
  wf := gather_S4x1024_S16384x4x1_S16384x4x1024_2_0_n_n_0_2_11024_wf
def dot_S16384x4x1024_S1024x512_S16384x4x512_2_0_01_1_n_n : DotDims S16384x4x1024 S1024x512 S16384x4x512 where
  lhsContracting := [2]
  rhsContracting := [0]
  lhsNonContracting := [0, 1]
  rhsNonContracting := [1]
  lhsBatch := []
  rhsBatch := []
  wf := dot_S16384x4x1024_S1024x512_S16384x4x512_2_0_01_1_n_n_wf
def dot_S16384x4x512_S512x3_S16384x4x3_2_0_01_1_n_n : DotDims S16384x4x512 S512x3 S16384x4x3 where
  lhsContracting := [2]
  rhsContracting := [0]
  lhsNonContracting := [0, 1]
  rhsNonContracting := [1]
  lhsBatch := []
  rhsBatch := []
  wf := dot_S16384x4x512_S512x3_S16384x4x3_2_0_01_1_n_n_wf

class Facts : Prop extends Facts₀ where

variable [Facts]
-- ==== Proof.Masked.lean ====
/-
  THE MASKED INPUT, AS ONE FUNCTION OF THE ARRAYS.

  At position (b, l) and feature k the head is fed

      x (b, l, k) + add     where l < wn[b] (as signed words), else 0,
      add = table (cnt[b, l], k)  where the repeat count cnt[b, l] is positive, else 0,

  the table row taken as a gather takes it: a negative index wrapped by the table's height first, then clamped into
  the table.  (The count never is negative and never exceeds 3; the wrap and the clamp are part of what the reference
  program computes, so they are part of the function.)  The count array is a parameter: each program supplies its own
  copy of the count of the row words.
-/
import Idealize.ShloMosaic.PureOps.Ideal
import Idealize.ShloMosaic.Lib.ValueIdx

noncomputable section

namespace Cert.Masked

open Idealize.ShloMosaic Idealize.ShloMosaic.ValueIdx

/-- The table row the count selects: wrapped if negative, clamped into rows 0 .. 3. -/
abbrev pick (r : BitVec 32) : Fin 4 :=
  ⟨min (Scalar.select (IntOp.cmpi .slt r 0#32) (IntOp.addi r 4#32) r).toInt.toNat 3,
    Nat.lt_succ_of_le (Nat.min_le_right _ 3)⟩

/-- The masked input at index i = (b, l, k). -/
def maskedInput (cnt : (⟨2, ![16384, 4]⟩ : Shape).Idx → BitVec 32) (x : (⟨3, ![16384, 4, 1024]⟩ : Shape).Idx → EReal)
    (T : (⟨2, ![4, 1024]⟩ : Shape).Idx → EReal) (wn : (⟨1, ![16384]⟩ : Shape).Idx → BitVec 32) :
    (⟨3, ![16384, 4, 1024]⟩ : Shape).Idx → EReal := fun i =>
  Scalar.select (IntOp.cmpi .slt (BitVec.ofNat 32 (i 1).val) (wn (ix1 (i 0))))
    (x i + Scalar.select (IntOp.cmpi .sgt (cnt (ix2 (i 0) (i 1))) 0#32) (T (ix2 (pick (cnt (ix2 (i 0) (i 1)))) (i 2))) 0) 0

end Cert.Masked

end
-- ==== Proof.RepeatRow.lean ====
/-
  One position of the masked input, as a scalar identity on the extended reals.

  A position (b, l) carries a count r in {0, 1, 2, 3} (how many earlier positions of the same row hold the same
  word), a 0/1 validity bit v, the input x and the four table rows T 0 .. T 3 at one feature.  One program adds the
  table row T r when r > 0 (a clamped table lookup under a select) and keeps the sum only where v is set (a second
  select, else 0).  The other builds the added row as a sum of four one-hot products

      0 + [e = 0] T 0 + [e = 1] T 1 + [e = 2] T 2 + [e = 3] T 3,     e = r if r > 0 else -1,

  and multiplies by v as a float.  On the extended reals 0 * t = 0 and 1 * t = t for EVERY t (infinite ones included),
  so the one-hot sum is T r or 0 and the product with a 0/1 float is the select: the two agree with no hypothesis on x
  or T.  What IS needed is r <= 3: at r >= 4 the clamped lookup reads row 3 where the one-hot sum is 0.

  Also here: a sum of four 0/1 words whose last is 0 is one of the words 0, 1, 2, 3.
-/
import Idealize.ShloMosaic.PureOps.Ideal
import Idealize.ShloMosaic.PureOps.Reduce
import Idealize.ShloMosaic.Lib.ValueIdx
import proofs.«137504_j26121991094405_1_alg».proof.Proof.Masked

noncomputable section

open scoped BigOperators

namespace Cert.RepeatRow

open Idealize.ShloMosaic Idealize.ShloMosaic.ValueIdx

/-- The 0/1 word of an equality test, widened and read as a signed integer, is the float 1 or 0. -/
theorem oneHot (x y : BitVec 32) :
    FloatOps.sitofp (F := Ideal) .f32 ((IntOp.cmpi .eq x y).setWidth 32) = if x = y then (1 : EReal) else 0 := by
  show (((BitVec.setWidth 32 (BitVec.ofBool (x == y))).toInt : ℝ) : EReal) = _
  by_cases h : x = y
  · rw [if_pos h, h, beq_self_eq_true]
    have e : (BitVec.setWidth 32 (BitVec.ofBool true)).toInt = 1 := by decide
    rw [e]; simp
  · rw [if_neg h, (beq_eq_false_iff_ne).2 h]
    have e : (BitVec.setWidth 32 (BitVec.ofBool false)).toInt = 0 := by decide
    rw [e]; simp

/-- A bit read as an unsigned integer is the float 1 or 0. -/
theorem bitFloat (v : BitVec 1) :
    FloatOps.uitofp (F := Ideal) .f32 v = if v = 1#1 then (1 : EReal) else 0 := by
  show ((v.toNat : ℝ) : EReal) = _
  by_cases h : v = 1#1
  · rw [if_pos h, h]; simp
  · rw [if_neg h, eq_zero_of_ne_one h]; simp

theorem pick_one : Cert.Masked.pick 1#32 = 1 := by decide
theorem pick_two : Cert.Masked.pick 2#32 = 2 := by decide
theorem pick_three : Cert.Masked.pick 3#32 = 3 := by decide

/-- The masked input at one position and feature: the one-hot sum times the validity float is the nested select
    over the clamped table lookup, for a count among 0, 1, 2, 3. -/
theorem masked_add (x : EReal) (T : Fin 4 → EReal) (r : BitVec 32)
    (hr : r = 0#32 ∨ r = 1#32 ∨ r = 2#32 ∨ r = 3#32) (v : BitVec 1) :
    (x + ((((0 + (if Scalar.select (IntOp.cmpi .sgt r 0#32) r 4294967295#32 = 0#32 then (1 : EReal) else 0) * T 0)
              + (if Scalar.select (IntOp.cmpi .sgt r 0#32) r 4294967295#32 = 1#32 then (1 : EReal) else 0) * T 1)
              + (if Scalar.select (IntOp.cmpi .sgt r 0#32) r 4294967295#32 = 2#32 then (1 : EReal) else 0) * T 2)
              + (if Scalar.select (IntOp.cmpi .sgt r 0#32) r 4294967295#32 = 3#32 then (1 : EReal) else 0) * T 3))
        * (if v = 1#1 then (1 : EReal) else 0)
      = Scalar.select v
          (x + Scalar.select (IntOp.cmpi .sgt r 0#32)
            (T (Cert.Masked.pick r)) 0) 0 := by
  have hv : v = 1#1 ∨ v = 0#1 := by
    by_cases h : v = 1#1
    · exact Or.inl h
    · exact Or.inr (eq_zero_of_ne_one h)
  rcases hr with rfl | rfl | rfl | rfl <;> rcases hv with rfl | rfl <;>
    simp [pick_one, pick_two, pick_three, Scalar.select, IntOp.cmpi]

/-- Folding word addition from 0 over four words is their sum. -/
theorem fold_addi_four (f : Fin 4 → BitVec 32) :
    (Finset.univ : Finset (Fin 4)).fold IntOp.addi 0#32 f = f 0 + (f 1 + (f 2 + (f 3 + 0#32))) := by
  have h : (Finset.univ : Finset (Fin 4)) = {0, 1, 2, 3} := by decide
  rw [h, Finset.fold_insert (by decide), Finset.fold_insert (by decide), Finset.fold_insert (by decide),
    Finset.fold_singleton]
  rfl

/-- Four 0/1 words, the last 0, sum to one of the words 0, 1, 2, 3. -/
theorem count_cases (a b c : BitVec 1) :
    a.setWidth 32 + (b.setWidth 32 + (c.setWidth 32 + (0#32 + 0#32))) = 0#32
      ∨ a.setWidth 32 + (b.setWidth 32 + (c.setWidth 32 + (0#32 + 0#32))) = 1#32
      ∨ a.setWidth 32 + (b.setWidth 32 + (c.setWidth 32 + (0#32 + 0#32))) = 2#32
      ∨ a.setWidth 32 + (b.setWidth 32 + (c.setWidth 32 + (0#32 + 0#32))) = 3#32 := by
  revert a b c; decide

end Cert.RepeatRow

end
-- ==== Proof.CountWord.lean ====
/-
  THE REPEAT COUNT IS ONE OF 0, 1, 2, 3.

  For a row of four words the count at position l is the number of earlier positions j < l holding the same word.
  Both programs compute it the same way: the 4 x 4 table of equalities, masked by the strict lower triangle
  (entry (l, j) is set when l - 1 >= j as signed words, that is j < l), widened to words and summed over j.  Column
  j = 3 of the triangle is empty (l - 1 >= 3 fails for every l in 0..3), so the sum has at most three ones: the count is
  one of the words 0, 1, 2, 3, whatever the equality table holds.  This is what keeps the table lookup by the count
  inside the four rows of the table.
-/
import Idealize.ShloMosaic.PureOps.Reduce
import Idealize.ShloMosaic.Lib.ValueIdx
import Idealize.ShloMosaic.Lib.Pipeline.Value
import proofs.«137504_j26121991094405_1_alg».proof.Proof.RepeatRow

noncomputable section

namespace Cert.CountWord

open Idealize.ShloMosaic Idealize.ShloMosaic.ValueIdx

abbrev S0 : Shape := ⟨0, ![]⟩
abbrev S44 : Shape := ⟨2, ![4, 4]⟩
abbrev S144 : Shape := ⟨3, ![1, 4, 4]⟩
abbrev SB44 : Shape := ⟨3, ![16384, 4, 4]⟩
abbrev SB4 : Shape := ⟨2, ![16384, 4]⟩

/-- The strict lower triangle of a 4 x 4 table of bits, as the programs build it: (l, j) is set when l - 1 >= j. -/
def tri (h0 : S0.BroadcastsInDim S44 (![] : Fin 0 → Fin S44.rank)) : IVec S44 1 :=
  select (cmpi .sge (addi (iotaInDim S44 32 0) (broadcastInDim S44 ![] h0 (constantI S0 32 4294967295#32))) (iotaInDim S44 32 1))
    (broadcastInDim S44 ![] h0 (constantI S0 1 1#1)) (broadcastInDim S44 ![] h0 (constantI S0 1 0#1))

/-- Its last column is empty. -/
theorem tri_last (h0 : S0.BroadcastsInDim S44 (![] : Fin 0 → Fin S44.rank)) (l : Fin 4) : tri h0 (ix2 l (3 : Fin 4)) = 0#1 := by
  show Scalar.select (IntOp.cmpi .sge (IntOp.addi (BitVec.ofNat 32 l.val) 4294967295#32) (BitVec.ofNat 32 3)) 1#1 0#1 = 0#1
  fin_cases l <;> decide

/-- The triangle spread over every row block, read at (b, l, j), is the triangle at (l, j). -/
theorem tri_spread (h0 : S0.BroadcastsInDim S44 (![] : Fin 0 → Fin S44.rank))
    (h1 : S44.BroadcastsInDim S144 (![1, 2] : Fin 2 → Fin S144.rank))
    (h2 : S144.BroadcastsInDim SB44 (![0, 1, 2] : Fin 3 → Fin SB44.rank)) (b : Fin 16384) (l j : Fin 4) :
    broadcastInDim SB44 ![0, 1, 2] h2 (broadcastInDim S144 ![1, 2] h1 (tri h0)) (ix3 b l j) = tri h0 (ix2 l j) := by
  rw [broadcastInDim_apply ![0, 1, 2] h2 _ (ix3 b l j) (ix3 (0 : Fin 1) l j) (fun a => by
      match a with
      | ⟨0, _⟩ => rfl
      | ⟨1, _⟩ => rfl
      | ⟨2, _⟩ => rfl),
    broadcastInDim_apply ![1, 2] h1 _ (ix3 (0 : Fin 1) l j) (ix2 l j) (fun a => by
      match a with
      | ⟨0, _⟩ => rfl
      | ⟨1, _⟩ => rfl)]

/-- The reduced index (b, l) with coordinate k put back on the last axis is (b, l, k). -/
theorem lift_last (h : SB44.Reduces [2] SB4) (b : Fin 16384) (l : Fin 4) (k : Fin (SB44.size 2)) :
    h.lift (ix2 b l) k = ix3 b l (⟨k.val, k.isLt⟩ : Fin 4) := by
  funext c; apply Fin.ext
  fin_cases c <;> rfl

/-- THE COUNT: the masked equality table widened and summed along its last axis is, at every (b, l), one of the
    words 0, 1, 2, 3. -/
theorem count_cases (h0 : S0.BroadcastsInDim S44 (![] : Fin 0 → Fin S44.rank))
    (h1 : S44.BroadcastsInDim S144 (![1, 2] : Fin 2 → Fin S144.rank))
    (h2 : S144.BroadcastsInDim SB44 (![0, 1, 2] : Fin 3 → Fin SB44.rank))
    (hlt : 1 < 32) (hred : SB44.ReducesTo [2] SB4) (hu : 0 < S0.numel)
    (E : IVec SB44 1) (b : Fin 16384) (l : Fin 4) :
    let r := Host.reduce IntOp.addi
      (extui 32 (andi E (broadcastInDim SB44 ![0, 1, 2] h2 (broadcastInDim S144 ![1, 2] h1 (tri h0)))) hlt)
      (constantI S0 32 0#32) hred hu (ix2 b l)
    r = 0#32 ∨ r = 1#32 ∨ r = 2#32 ∨ r = 3#32 := by
  intro r
  have h : SB44.Reduces [2] SB4 := by decide
  have hr : r = (Finset.univ : Finset (Fin 4)).fold IntOp.addi 0#32 (fun k =>
      (IntOp.andi (E (ix3 b l k))
        (broadcastInDim SB44 ![0, 1, 2] h2 (broadcastInDim S144 ![1, 2] h1 (tri h0)) (ix3 b l k))).setWidth 32) := by
    show Host.reduce IntOp.addi _ _ hred hu (ix2 b l) = _
    rw [Host.reduce_eq_fold_single IntOp.addi _ _ hred h hu]
    have hf : ((extui 32 (andi E (broadcastInDim SB44 ![0, 1, 2] h2 (broadcastInDim S144 ![1, 2] h1 (tri h0)))) hlt) ∘ h.lift (ix2 b l))
        = fun k : Fin 4 => (IntOp.andi (E (ix3 b l k))
            (broadcastInDim SB44 ![0, 1, 2] h2 (broadcastInDim S144 ![1, 2] h1 (tri h0)) (ix3 b l k))).setWidth 32 :=
      funext fun k => by
        show extui 32 _ hlt (h.lift (ix2 b l) k) = _
        rw [lift_last h b l k]
        rfl
    exact congrArg (fun f => Finset.fold IntOp.addi 0#32 f (Finset.univ : Finset (Fin 4))) hf
  rw [hr, Cert.RepeatRow.fold_addi_four]
  rw [tri_spread h0 h1 h2 b l 3, tri_last h0 l]
  have hz : ∀ e : BitVec 1, (IntOp.andi e 0#1).setWidth 32 = 0#32 := by decide
  rw [hz]
  exact Cert.RepeatRow.count_cases _ _ _

/-! ## The count as one function of the row words -/

abbrev SB41 : Shape := ⟨3, ![16384, 4, 1]⟩
abbrev SB14 : Shape := ⟨3, ![16384, 1, 4]⟩

/-- The count array of the words wc : [16384, 4]: entry (b, l) counts the j < l with wc[b, j] = wc[b, l].  Both
    programs hold exactly this term (each with its own proofs of the shape facts, which are propositions). -/
def count (hA1 : SB4.BroadcastsInDim SB41 (![0, 1] : Fin 2 → Fin SB41.rank))
    (hB1 : SB4.BroadcastsInDim SB14 (![0, 2] : Fin 2 → Fin SB14.rank))
    (hA2 : SB41.BroadcastsInDim SB44 (![0, 1, 2] : Fin 3 → Fin SB44.rank))
    (hB2 : SB14.BroadcastsInDim SB44 (![0, 1, 2] : Fin 3 → Fin SB44.rank))
    (h0 : S0.BroadcastsInDim S44 (![] : Fin 0 → Fin S44.rank))
    (h1 : S44.BroadcastsInDim S144 (![1, 2] : Fin 2 → Fin S144.rank))
    (h2 : S144.BroadcastsInDim SB44 (![0, 1, 2] : Fin 3 → Fin SB44.rank))
    (hlt : 1 < 32) (hred : SB44.ReducesTo [2] SB4) (hu : 0 < S0.numel) (wc : IVec SB4 32) : IVec SB4 32 :=
  Host.reduce IntOp.addi
    (extui 32 (andi (cmpi .eq (broadcastInDim SB44 ![0, 1, 2] hA2 (broadcastInDim SB41 ![0, 1] hA1 wc))
        (broadcastInDim SB44 ![0, 1, 2] hB2 (broadcastInDim SB14 ![0, 2] hB1 wc)))
      (broadcastInDim SB44 ![0, 1, 2] h2 (broadcastInDim S144 ![1, 2] h1 (tri h0)))) hlt)
    (constantI S0 32 0#32) hred hu

/-- Every entry of the count array is one of the words 0, 1, 2, 3. -/
theorem count_apply_cases (hA1 : SB4.BroadcastsInDim SB41 (![0, 1] : Fin 2 → Fin SB41.rank))
    (hB1 : SB4.BroadcastsInDim SB14 (![0, 2] : Fin 2 → Fin SB14.rank))
    (hA2 : SB41.BroadcastsInDim SB44 (![0, 1, 2] : Fin 3 → Fin SB44.rank))
    (hB2 : SB14.BroadcastsInDim SB44 (![0, 1, 2] : Fin 3 → Fin SB44.rank))
    (h0 : S0.BroadcastsInDim S44 (![] : Fin 0 → Fin S44.rank))
    (h1 : S44.BroadcastsInDim S144 (![1, 2] : Fin 2 → Fin S144.rank))
    (h2 : S144.BroadcastsInDim SB44 (![0, 1, 2] : Fin 3 → Fin SB44.rank))
    (hlt : 1 < 32) (hred : SB44.ReducesTo [2] SB4) (hu : 0 < S0.numel) (wc : IVec SB4 32) (b : Fin 16384) (l : Fin 4) :
    count hA1 hB1 hA2 hB2 h0 h1 h2 hlt hred hu wc (ix2 b l) = 0#32
      ∨ count hA1 hB1 hA2 hB2 h0 h1 h2 hlt hred hu wc (ix2 b l) = 1#32
      ∨ count hA1 hB1 hA2 hB2 h0 h1 h2 hlt hred hu wc (ix2 b l) = 2#32
      ∨ count hA1 hB1 hA2 hB2 h0 h1 h2 hlt hred hu wc (ix2 b l) = 3#32 :=
  count_cases h0 h1 h2 hlt hred hu _ b l

end Cert.CountWord

end
-- ==== Proof.KernelPrefix.lean ====
/-
  WHAT THE KERNEL'S REGION FINDS IN ITS TWO COMPUTED OPERANDS.

  Before the region the program computes, from the integer inputs alone, the two side tables the kernel streams:
  the effective count  e[b, l] = count[b, l] if count[b, l] > 0 else -1  (count: the number of earlier positions of
  row b holding the same word as position l), and the validity mask  v[b, l] = 1.0 if l < wn[b] else 0.0.
  Here the buffers main_v14 and main_v21, as the region finds them, are read back as those two functions of the
  input arrays.  The triangle mask and the select-with-default are outlined functions inlined at their calls; their
  operations are first restated over the plain buffers (the typed form only transports values along type equations
  that hold by computation), so that the composed terms carry no transport.
-/
import proofs.«137504_j26121991094405_1_alg».proof.Proof.Gen.KernelIdeal.Frame
import proofs.«137504_j26121991094405_1_alg».proof.Proof.CountWord
import Idealize.ShloMosaic.Lib.StableHlo.Run

noncomputable section

namespace Cert.KernelIdeal.Prefix

open Cert.KernelIdeal Cert.KernelIdeal.Gen Idealize.ShloMosaic Idealize.ShloMosaic.TcCoe Idealize.SL.Sem
open Idealize.ShloMosaic.StableHlo (after_cons after_nil nullary_result' unary_result' binary_result' ternary_result'
  quaternary_result' reshape_result' nary4_result' nary_result' unaryIndexed_result' binaryIndexed_result'
  nullary_result_ne' unary_result_ne' binary_result_ne' ternary_result_ne' quaternary_result_ne' reshape_result_ne'
  nary_result_ne' unaryIndexed_result_ne' binaryIndexed_result_ne')

variable {F : FTy → Type} [FloatOps F]

/-- The triangle mask's nine operations over the plain buffers. -/
theorem tril_ops : (hostOps0_1 : List (HloOp τ sig (Elt F))) =
  [ StableHlo.nullary main_call0_v0 ((iotaInDim S4x4 32 0) : (⟨S4x4, .i32⟩ : BufTy).Contents (Elt F)),
    StableHlo.nullary main_call0_c ((constantI S_ 32 4294967295#32) : (⟨S_, .i32⟩ : BufTy).Contents (Elt F)),
    StableHlo.unary main_call0_c main_call0_v1 ((broadcastInDim S4x4 ![] bcast_S_S4x4) : (⟨S_, .i32⟩ : BufTy).Contents (Elt F) → (⟨S4x4, .i32⟩ : BufTy).Contents (Elt F)),
    StableHlo.binary main_call0_v0 main_call0_v1 main_call0_v2 (addi : (⟨S4x4, .i32⟩ : BufTy).Contents (Elt F) → (⟨S4x4, .i32⟩ : BufTy).Contents (Elt F) → (⟨S4x4, .i32⟩ : BufTy).Contents (Elt F)),
    StableHlo.nullary main_call0_v3 ((iotaInDim S4x4 32 1) : (⟨S4x4, .i32⟩ : BufTy).Contents (Elt F)),
    StableHlo.binary main_call0_v2 main_call0_v3 main_call0_v4 ((cmpi .sge) : (⟨S4x4, .i32⟩ : BufTy).Contents (Elt F) → (⟨S4x4, .i32⟩ : BufTy).Contents (Elt F) → (⟨S4x4, .i1⟩ : BufTy).Contents (Elt F)),
    StableHlo.nullary main_call0_c_0 ((constantI S_ 1 0#1) : (⟨S_, .i1⟩ : BufTy).Contents (Elt F)),
    StableHlo.unary main_call0_c_0 main_call0_v5 ((broadcastInDim S4x4 ![] bcast_S_S4x4) : (⟨S_, .i1⟩ : BufTy).Contents (Elt F) → (⟨S4x4, .i1⟩ : BufTy).Contents (Elt F)),
    StableHlo.ternary main_call0_v4 main_v5 main_call0_v5 main_v6 (select : (⟨S4x4, .i1⟩ : BufTy).Contents (Elt F) → (⟨S4x4, .i1⟩ : BufTy).Contents (Elt F) → (⟨S4x4, .i1⟩ : BufTy).Contents (Elt F) → (⟨S4x4, .i1⟩ : BufTy).Contents (Elt F)) ] := rfl

/-- The select-with-default's three operations over the plain buffers. -/
theorem where_ops : (hostOps0_3 : List (HloOp τ sig (Elt F))) =
  [ StableHlo.unary main_c_2 main_call1_v0 (id : (⟨S_, .i32⟩ : BufTy).Contents (Elt F) → (⟨S_, .i32⟩ : BufTy).Contents (Elt F)),
    StableHlo.unary main_call1_v0 main_call1_v1 ((broadcastInDim S16384x4 ![] bcast_S_S16384x4) : (⟨S_, .i32⟩ : BufTy).Contents (Elt F) → (⟨S16384x4, .i32⟩ : BufTy).Contents (Elt F)),
    StableHlo.ternary main_v13 main_v11 main_call1_v1 main_v14 (select : (⟨S16384x4, .i1⟩ : BufTy).Contents (Elt F) → (⟨S16384x4, .i32⟩ : BufTy).Contents (Elt F) → (⟨S16384x4, .i32⟩ : BufTy).Contents (Elt F) → (⟨S16384x4, .i32⟩ : BufTy).Contents (Elt F)) ] := rfl

variable (m : (ℓ : Loc nD τ sig) → Buf (Elt F) ℓ)

/-- The count array of the kernel's row words. -/
abbrev count (wc : IVec S16384x4 32) : IVec S16384x4 32 :=
  Cert.CountWord.count bcast_S16384x4_S16384x4x1_0_1 bcast_S16384x4_S16384x1x4_0_2 bcast_S16384x4x1_S16384x4x4_0_1_2
    bcast_S16384x1x4_S16384x4x4_0_1_2 bcast_S_S4x4 bcast_S4x4_S1x4x4_1_2 bcast_S1x4x4_S16384x4x4_0_1_2 natLt_1_32
    reducesTo_S16384x4x4_S16384x4_d2 h_S_ wc

/-- The validity mask as the region finds it: 1.0 where the position is below the row's length. -/
theorem V_valid (c : Dev nD) :
    (V m c main_v21 : (⟨S16384x4, .f32⟩ : BufTy).Contents (Elt F))
      = uitofp .f32 (cmpi .slt
          (broadcastInDim S16384x4 ![0, 1] bcast_S1x4_S16384x4_0_1 (broadcastInDim S1x4 ![1] bcast_S4_S1x4_1 (iotaInDim S4 32 0)))
          (broadcastInDim S16384x4 ![0, 1] bcast_S16384x1_S16384x4_0_1
            (broadcastInDim S16384x1 ![0] bcast_S16384_S16384x1_0 (m ((c : Thread nD τ).loc main_arg6))))) := by
  show StableHlo.after (List.flatten [hostOps0, hostOps0_1, hostOps0_2, hostOps0_3, hostOps0_4]) (fun b => m (c, b))
    (Proc.devRef .tc main_v21) = _
  rw [tril_ops, where_ops]
  simp only [hostOps0, hostOps0_2, hostOps0_4, List.flatten_cons, List.flatten_nil, List.append_nil, List.cons_append,
    List.nil_append]
  after_results_simp

/-- The effective count as the region finds it: the count where it is positive, else -1. -/
theorem V_effcount (c : Dev nD) :
    (V m c main_v14 : (⟨S16384x4, .i32⟩ : BufTy).Contents (Elt F))
      = select (cmpi .sgt (count (m ((c : Thread nD τ).loc main_arg7)))
            (broadcastInDim S16384x4 ![] bcast_S_S16384x4 (constantI S_ 32 0#32)))
          (count (m ((c : Thread nD τ).loc main_arg7)))
          (broadcastInDim S16384x4 ![] bcast_S_S16384x4 (id (constantI S_ 32 4294967295#32))) := by
  show StableHlo.after (List.flatten [hostOps0, hostOps0_1, hostOps0_2, hostOps0_3, hostOps0_4]) (fun b => m (c, b))
    (Proc.devRef .tc main_v14) = _
  rw [tril_ops, where_ops]
  simp only [hostOps0, hostOps0_2, hostOps0_4, List.flatten_cons, List.flatten_nil, List.append_nil, List.cons_append,
    List.nil_append]
  after_results_simp
  rfl

end Cert.KernelIdeal.Prefix

end
-- ==== Proof.LibBlocks.lean ====
/-
  ROW BLOCKS OF A TWO-AXIS ARRAY, AND TWO BLOCK BODIES READ AT ONE ELEMENT.

  An array [N, b] is worked in blocks of n consecutive rows: block t holds rows n t … n t + n - 1, so row r lies in
  block r / n at local row r - n (r / n) (row_in_block). Two bodies of such a block, each set beside the whole-array
  operation it is a block of, at the extended reals:

  * bias and rectifier: element (p, q) of max(block + bias row, 0) is max(block (p, q) + bias (0, q), 0), and element
    (r, q) of max(array + bias row broadcast down the rows, 0) is max(array (r, q) + bias (0, q), 0): equal when block
    element (p, q) is array element (r, q) (biasRelu_apply);
  * matrix product: element (p, q) of a block [n, K] times a matrix [K, b], accumulated from zero, is the sum over k of
    block (p, k) matrix (k, q), and element (r, q) of the host's product of the array [N, K] with the matrix is the sum
    over k of array (r, k) matrix (k, q): equal when block row p is array row r (matmul_plain_apply,
    dotGeneral_plain_apply, matmul_eq_dotGeneral_apply). A change of float format on the way in is the identity here.

  Generic in the extents; a program's dimension numbers enter through an equation with the library's plain
  rows-by-columns record.
-/
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.LibBlocks

open Idealize.ShloMosaic Idealize.ShloMosaic.ValueIdx

/-! ## Rows in blocks -/

/-- Row r of nb blocks of bs rows each lies in block r / bs, between that block's first row and its last. -/
theorem row_in_block {nb bs r : Nat} (hbs : 0 < bs) (hr : r < nb * bs) :
    r / bs < nb ∧ r / bs * bs ≤ r ∧ r < r / bs * bs + bs :=
  ⟨Nat.div_lt_of_lt_mul (by rwa [Nat.mul_comm] at hr), Nat.div_mul_le_self r bs, Nat.lt_div_mul_add hbs⟩

/-- The zero offsets of a two-axis block, as the constant function. -/
theorem off2_zero : (![0, 0] : Fin 2 → Nat) = fun _ => 0 := funext fun a => by fin_cases a <;> rfl

/-! ## Bias and rectifier -/

/-- Element (p, q) of max(block + bias row, 0) against element (r, q) of max(array + bias row, 0), the bias row
    broadcast down the rows on both sides: equal when block element (p, q) is array element (r, q) and the two bias
    rows are the same. -/
theorem biasRelu_apply {n N b : Nat}
    (hc0 : (⟨2, ![n, b]⟩ : Shape).ShapeCasts ⟨2, ![n, b]⟩) (hc1 : (⟨2, ![1, b]⟩ : Shape).ShapeCasts ⟨2, ![1, b]⟩)
    (hb : (⟨2, ![1, b]⟩ : Shape).Broadcasts ⟨2, ![n, b]⟩)
    (hbd : (⟨2, ![1, b]⟩ : Shape).BroadcastsInDim ⟨2, ![N, b]⟩ ![0, 1])
    (hz : (⟨0, ![]⟩ : Shape).BroadcastsInDim ⟨2, ![N, b]⟩ ![])
    (x0 : FVec Ideal ⟨2, ![n, b]⟩ .f32) (x1 : FVec Ideal ⟨2, ![1, b]⟩ .f32)
    (a : FVec Ideal ⟨2, ![N, b]⟩ .f32) (b2 : FVec Ideal ⟨2, ![1, b]⟩ .f32)
    (p : Fin n) (r : Fin N) (q : Fin b) (h0 : x0 (ix2 p q) = a (ix2 r q)) (h1 : x1 = b2) :
    maximumf (addf (shapeCast ⟨2, ![n, b]⟩ x0 hc0) (broadcastTo ⟨2, ![n, b]⟩ (shapeCast ⟨2, ![1, b]⟩ x1 hc1) hb))
        (broadcast ⟨2, ![n, b]⟩ (Scalar.ofBits (F := Ideal) .f32 0x00000000#32)) (ix2 p q)
      = maximumf (addf a (broadcastInDim ⟨2, ![N, b]⟩ ![0, 1] hbd b2))
        (broadcastInDim ⟨2, ![N, b]⟩ ![] hz (constant (F := Ideal) ⟨0, ![]⟩ .f32 0x00000000#32)) (ix2 r q) := by
  subst h1
  rw [maximumf_apply, maximumf_apply, addf_apply, addf_apply, shapeCast_self, shapeCast_self,
    broadcastTo_apply x1 hb (ix2 p q) (ix2 (0 : Fin 1) q) (fun a => by
      match a with
      | ⟨0, _⟩ => rfl
      | ⟨1, _⟩ =>
        show q.val = if b = 1 then 0 else q.val
        have := q.isLt
        split_ifs <;> omega),
    broadcastInDim_apply ![0, 1] hbd x1 (ix2 r q) (ix2 (0 : Fin 1) q) (fun a => by
      match a with
      | ⟨0, _⟩ => rfl
      | ⟨1, _⟩ =>
        show q.val = if b = 1 then 0 else q.val
        have := q.isLt
        split_ifs <;> omega),
    broadcastInDim_apply ![] hz (constant (F := Ideal) ⟨0, ![]⟩ .f32 0x00000000#32) (ix2 r q) ix0 (fun a => a.elim0),
    h0]
  rfl

/-! ## The matrix product -/

section Plain

variable {M K N : Nat}

/-- In a rows-by-columns product the left operand is read at the result's row and the contraction position … -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  refine Fin.ext ?_
  match a with
  | ⟨0, _⟩ =>
    show ((DotDims.plain M K N).lhsIdx (ix2 p q) _ 0).val = p.val
    unfold DotDims.lhsIdx
    rw [dif_neg (show ¬(0 : Fin (⟨2, ![M, K]⟩ : Shape).rank) ∈ (DotDims.plain M K N).lhsBatch from List.not_mem_nil),
      dif_pos (show (0 : Fin (⟨2, ![M, K]⟩ : Shape).rank) ∈ (DotDims.plain M K N).lhsNonContracting from List.mem_singleton.mpr rfl)]
    rfl
  | ⟨1, _⟩ =>
    exact ((DotDims.plain M K N).lhsIdx_val_of_single (cl := 1) rfl (ix2 p q) _).trans hk

/-- … and the right operand at the contraction position and the result's column. -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  refine Fin.ext ?_
  match a with
  | ⟨0, _⟩ =>
    exact ((DotDims.plain M K N).rhsIdx_val_of_single (cr := 0) rfl (ix2 p q) _).trans hk
  | ⟨1, _⟩ =>
    show ((DotDims.plain M K N).rhsIdx (ix2 p q) _ 1).val = q.val
    unfold DotDims.rhsIdx
    rw [dif_neg (show ¬(1 : Fin (⟨2, ![K, N]⟩ : Shape).rank) ∈ (DotDims.plain M K N).rhsBatch from List.not_mem_nil),
      dif_pos (show (1 : Fin (⟨2, ![K, N]⟩ : Shape).rank) ∈ (DotDims.plain M K N).rhsNonContracting from List.mem_singleton.mpr rfl)]
    rfl

/-- The matrix unit's product into a zero accumulator, at element (p, q): the sum over k of left (p, k) right (k, q). -/
theorem matmul_plain_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (q : Fin N) :
    FloatOps.matmul d prec l r (constant ⟨2, ![M, N]⟩ .f32 0x00000000#32) (ix2 p q) = ∑ k : Fin K, l (ix2 p k) * r (ix2 k q) := by
  subst hd
  rw [Ideal.matmul_constant_zero_apply, ← Equiv.sum_comp (contrEquiv1 (DotDims.plain M K N) K rfl rfl).symm]
  refine Finset.sum_congr rfl fun k _ => ?_
  rw [plain_lhsIdx, plain_rhsIdx]

/-- The host's product at element (p, q): the same sum. -/
theorem dotGeneral_plain_apply {φ₁ φ₂ : FTy} (d : DotDims ⟨2, ![M, K]⟩ ⟨2, ![K, N]⟩ ⟨2, ![M, N]⟩) (hd : d = DotDims.plain M K N)
    (prec : Option ContractPrecision) (sched : HostSchedule) (l : FVec Ideal ⟨2, ![M, K]⟩ φ₁) (r : FVec Ideal ⟨2, ![K, N]⟩ φ₂)
    (p : Fin M) (q : Fin N) :
    FloatOps.dotGeneral d prec sched l r (ix2 p q) = ∑ k : Fin K, l (ix2 p k) * r (ix2 k q) := by
  subst hd
  rw [Ideal.dotGeneral_apply, ← Equiv.sum_comp (contrEquiv1 (DotDims.plain M K N) K rfl rfl).symm]
  refine Finset.sum_congr rfl fun k _ => ?_
  rw [plain_lhsIdx, plain_rhsIdx]

end Plain

/-- Element (p, q) of a block [n, K] times a matrix [K, b] on the matrix unit, both narrowed on the way in and
    accumulated from zero, against element (r, q) of the host's product of an array [N, K] with a matrix: equal when
    block row p is array row r and the matrices are the same. -/
theorem matmul_eq_dotGeneral_apply {n N K b : Nat}
    (dk : DotDims ⟨2, ![n, K]⟩ ⟨2, ![K, b]⟩ ⟨2, ![n, b]⟩) (hdk : dk = DotDims.plain n K b)
    (dr : DotDims ⟨2, ![N, K]⟩ ⟨2, ![K, b]⟩ ⟨2, ![N, b]⟩) (hdr : dr = DotDims.plain N K b)
    (hc0 : (⟨2, ![n, K]⟩ : Shape).ShapeCasts ⟨2, ![n, K]⟩) (hc1 : (⟨2, ![K, b]⟩ : Shape).ShapeCasts ⟨2, ![K, b]⟩)
    (hlt : FTy.bf16.bits < FTy.f32.bits)
    (x0 : FVec Ideal ⟨2, ![n, K]⟩ .f32) (x1 : FVec Ideal ⟨2, ![K, b]⟩ .f32)
    (h : FVec Ideal ⟨2, ![N, K]⟩ .f32) (w : FVec Ideal ⟨2, ![K, b]⟩ .f32)
    (p : Fin n) (r : Fin N) (q : Fin b) (h0 : ∀ k : Fin K, x0 (ix2 p k) = h (ix2 r k)) (h1 : x1 = w) :
    matmul dk none (truncf .bf16 (shapeCast ⟨2, ![n, K]⟩ x0 hc0) hlt) (truncf .bf16 (shapeCast ⟨2, ![K, b]⟩ x1 hc1) hlt)
        (constant ⟨2, ![n, b]⟩ .f32 0x00000000#32) (ix2 p q)
      = Host.dotGeneral dr none h w (ix2 r q) := by
  subst h1
  rw [shapeCast_self, shapeCast_self]
  show FloatOps.matmul dk none _ _ _ _ = FloatOps.dotGeneral dr none .single h x1 (ix2 r q)
  rw [matmul_plain_apply dk hdk, dotGeneral_plain_apply dr hdr]
  refine Finset.sum_congr rfl fun k _ => ?_
  rw [truncf_apply, truncf_apply, h0 k]

end Cert.LibBlocks

end
-- ==== Proof.KernelBlock.lean ====
/-
  ONE BLOCK OF THE KERNEL, READ AT ONE ELEMENT.

  A grid point holds 256 rows b of the input, that is 1024 positions (p, l), p < 256, l < 4.  Its body
    * builds the added table row at every position as a sum of four one-hot products (the position's effective count
      compared with 0, 1, 2, 3, each test widened to a float and multiplied into the matching table row),
    * adds it to the input block and multiplies by the position's validity float: the masked block,
    * flattens the positions to 1024 matrix rows (row 4 p + l), and applies the two layers on the matrix unit:
      a product with W1 into a zero accumulator, the bias row, tanh; a product with W2 into a zero accumulator, the
      second bias row; and reshapes the [1024, 3] result back to [256, 4, 3].
  A change of float format on the way into a product is the identity on the extended reals.  Here the stored value
  is read at (p, l, o) as the head formula over the block's masked positions.
-/
import proofs.«137504_j26121991094405_1_alg».proof.Proof.Gen.KernelIdeal.Frame
import proofs.«137504_j26121991094405_1_alg».proof.Proof.RepeatRow
import proofs.«137504_j26121991094405_1_alg».proof.Proof.LibBlocks
import Idealize.ShloMosaic.Lib.Pipeline.Value
import Idealize.ShloMosaic.Lib.ValueLayout
import Idealize.ShloMosaic.PureOps.Ideal.Laws

noncomputable section

open scoped BigOperators

namespace Cert.KernelIdeal.Block

open Cert.KernelIdeal Cert.KernelIdeal.Gen Idealize.ShloMosaic Idealize.ShloMosaic.ValueIdx

variable {α : Type}

/-! ## The layout steps of the body, each read at one index -/

/-- Matrix row 4 p + l of the flattened positions. -/
abbrev row (p : Fin 256) (l : Fin 4) : Fin 1024 := ⟨4 * p.val + l.val, by omega⟩

/-- A per-position value [256, 4] spread along the features reads, at (p, l, k), the position's value. -/
theorem col_spread (s : S256x4.Idx → α) (p : Fin 256) (l : Fin 4) (k : Fin 1024) :
    broadcastTo S256x4x1024 (shapeCast S256x4x1 s shapeCasts_S256x4_S256x4x1) broadcasts_S256x4x1_S256x4x1024 (ix3 p l k)
      = s (ix2 p l) := by
  rw [broadcastTo_apply _ broadcasts_S256x4x1_S256x4x1024 (ix3 p l k) (ix3 p l (0 : Fin 1)) (fun a => by
    match a with
    | ⟨0, _⟩ => rfl
    | ⟨1, _⟩ => rfl
    | ⟨2, _⟩ => rfl)]
  exact shapeCast_apply s shapeCasts_S256x4_S256x4x1 (ix3 p l (0 : Fin 1)) (ix2 p l) (by
    rw [Shape.rowMajor_val_two, Shape.rowMajor_val_three]
    show p.val * 4 + l.val = (p.val * 4 + l.val) * 1 + 0
    omega)

/-- One table row [1, 1024] spread over the positions reads, at (p, l, k), the row's feature k. -/
theorem row_spread (r : S1x1024.Idx → α) (p : Fin 256) (l : Fin 4) (k : Fin 1024) :
    broadcastTo S256x4x1024 (shapeCast S1x1x1024 (shapeCast S1024 r shapeCasts_S1x1024_S1024) shapeCasts_S1024_S1x1x1024)
        broadcasts_S1x1x1024_S256x4x1024 (ix3 p l k)
      = r (ix2 (0 : Fin 1) k) := by
  rw [broadcastTo_apply _ broadcasts_S1x1x1024_S256x4x1024 (ix3 p l k) (ix3 (0 : Fin 1) (0 : Fin 1) k) (fun a => by
    match a with
    | ⟨0, _⟩ => rfl
    | ⟨1, _⟩ => rfl
    | ⟨2, _⟩ => rfl)]
  rw [shapeCast_apply _ shapeCasts_S1024_S1x1x1024 (ix3 (0 : Fin 1) (0 : Fin 1) k) (ix1 k) (by
    rw [Shape.rowMajor_val_one, Shape.rowMajor_val_three]
    show k.val = (0 * 1 + 0) * 1024 + k.val
    omega)]
  exact shapeCast_1a_a_apply r shapeCasts_S1x1024_S1024 k

/-- The flattened positions: matrix row 4 p + l, column k, is position (p, l), feature k. -/
theorem flatten_at (v : S256x4x1024.Idx → α) (p : Fin 256) (l : Fin 4) (k : Fin 1024) :
    shapeCast S1024x1024 v shapeCasts_S256x4x1024_S1024x1024 (ix2 (row p l) k) = v (ix3 p l k) :=
  shapeCast_apply v shapeCasts_S256x4x1024_S1024x1024 (ix2 (row p l) k) (ix3 p l k) (by
    rw [Shape.rowMajor_val_two, Shape.rowMajor_val_three]
    show (p.val * 4 + l.val) * 1024 + k.val = (4 * p.val + l.val) * 1024 + k.val
    omega)

/-- The result reshaped back: (p, l, o) is matrix row 4 p + l, column o. -/
theorem unflatten_at (v : S1024x3.Idx → α) (p : Fin 256) (l : Fin 4) (o : Fin 3) :
    shapeCast S256x4x3 v shapeCasts_S1024x3_S256x4x3 (ix3 p l o) = v (ix2 (row p l) o) :=
  shapeCast_apply v shapeCasts_S1024x3_S256x4x3 (ix3 p l o) (ix2 (row p l) o) (by
    rw [Shape.rowMajor_val_two, Shape.rowMajor_val_three]
    show (4 * p.val + l.val) * 3 + o.val = (p.val * 4 + l.val) * 3 + o.val
    omega)

/-- The first bias row spread down the matrix rows. -/
theorem bias1_at (b : S512.Idx → α) (r : Fin 1024) (h : Fin 512) :
    broadcastTo S1024x512 (shapeCast S1x512 b shapeCasts_S512_S1x512) broadcasts_S1x512_S1024x512 (ix2 r h) = b (ix1 h) := by
  rw [broadcastTo_1b_ab_apply, shapeCast_a_1a_apply]

/-- The second bias row spread down the matrix rows. -/
theorem bias2_at (b : S3.Idx → α) (r : Fin 1024) (o : Fin 3) :
    broadcastTo S1024x3 (shapeCast S1x3 b shapeCasts_S3_S1x3) broadcasts_S1x3_S1024x3 (ix2 r o) = b (ix1 o) := by
  rw [broadcastTo_1b_ab_apply, shapeCast_a_1a_apply]

/-- Row j of the table, loaded as a [1, 1024] block, reads at (0, k) the table at (j, k). -/
theorem table_row_at (T : Vec Ideal S4x1024 .f32) (j : Fin 4) (inb : ∀ a, (![j.val, 0] : Fin 2 → Nat) a + S1x1024.size a ≤ S4x1024.size a)
    (k : Fin 1024) :
    View.ld T (Rect.unit (s := S4x1024) ![j.val, 0] S1x1024.size inb) (ix2 (0 : Fin 1) k) = T (ix2 j k) := by
  show T ((Rect.unit (s := S4x1024) ![j.val, 0] S1x1024.size inb).idx (ix2 (0 : Fin 1) k)) = T (ix2 j k)
  refine congrArg T (funext fun a => Fin.ext ?_)
  match a with
  | ⟨0, _⟩ => show j.val + 1 * 0 = j.val; omega
  | ⟨1, _⟩ => show 0 + 1 * k.val = k.val; omega

/-! ## The body's arithmetic at one element -/

/-- The float of a word's equality test against a literal. -/
abbrev oh (e j : BitVec 32) : EReal := if e = j then 1 else 0

theorem cmpi_at {s : Shape} {w : Nat} (q : CmpIPredicate) (x y : IVec s w) (i : s.Idx) :
    cmpi q x y i = IntOp.cmpi q (x i) (y i) := rfl

theorem tanh_at {s : Shape} {φ : FTy} (x : FVec Ideal s φ) (i : s.Idx) : tanh x i = Ideal.tanh (x i) := rfl

theorem scalar_zero : Scalar.ofBits (F := Ideal) .f32 0x00000000#32 = (0 : EReal) := by
  show Ideal.ofBits .f32 0x00000000#32 = 0
  exact Ideal.ofBits_zero_f32

/-- The one-hot float of the effective count against the literal j, spread along the features, at (p, l, k). -/
theorem onehot_at (e : IVec S256x4 32) (j : BitVec 32) (p : Fin 256) (l : Fin 4) (k : Fin 1024) :
    broadcastTo S256x4x1024 (shapeCast S256x4x1 (sitofp (F := Ideal) .f32 (extui 32 (cmpi .eq e (broadcast S256x4 j)) natLt_1_32))
        shapeCasts_S256x4_S256x4x1) broadcasts_S256x4x1_S256x4x1024 (ix3 p l k)
      = oh (e (ix2 p l)) j := by
  rw [col_spread, sitofp_apply, extui_apply, cmpi_at, broadcast_apply]
  exact Cert.RepeatRow.oneHot _ _

/-- The added row accumulated over table rows 0, 1, 2 (the first part of the body), at (p, l, k). -/
theorem pay4_at (v1 : Vec Ideal S256x4 .i32) (v10 v22 v34 : Vec Ideal S1x1024 .f32) (p : Fin 256) (l : Fin 4) (k : Fin 1024) :
    k0_pay4 (F := Ideal) v1 v10 v22 v34 (ix3 p l k)
      = ((0 + oh (v1 (ix2 p l)) 0#32 * v10 (ix2 (0 : Fin 1) k)) + oh (v1 (ix2 p l)) 1#32 * v22 (ix2 (0 : Fin 1) k))
          + oh (v1 (ix2 p l)) 2#32 * v34 (ix2 (0 : Fin 1) k) := by
  unfold k0_pay4 k0_pay2
  simp only [addf_apply, mulf_apply, onehot_at, row_spread, broadcast_apply, shapeCast_self, scalar_zero]

/-- The stored value at (p, l, o), over the values the body read. -/
theorem pay1_at (v0 : Vec Ideal S256x4x1024 .f32) (v2 : IVec S256x4 32) (v4 : FVec Ideal S256x4 .f32)
    (v41 : FVec Ideal S256x4x1024 .f32) (v46 : Vec Ideal S1x1024 .f32) (v60 : Vec Ideal S1024x512 .f32)
    (v63 : Vec Ideal S512 .f32) (v69 : Vec Ideal S512x3 .f32) (v72 : Vec Ideal S3 .f32)
    (p : Fin 256) (l : Fin 4) (o : Fin 3) :
    k0_pay1 (F := Ideal) v0 v2 v4 v41 v46 v60 v63 v69 v72 (ix3 p l o)
      = (∑ h : Fin 512, Ideal.tanh ((∑ k : Fin 1024,
            ((v0 (ix3 p l k) + (v41 (ix3 p l k) + oh (v2 (ix2 p l)) 3#32 * v46 (ix2 (0 : Fin 1) k))) * v4 (ix2 p l))
              * v60 (ix2 k h)) + v63 (ix1 h)) * v69 (ix2 h o)) + v72 (ix1 o) := by
  unfold k0_pay1
  rw [unflatten_at, addf_apply, bias2_at]
  congr 1
  simp only [matmul]
  rw [Cert.LibBlocks.matmul_plain_apply (M := 1024) (K := 512) (N := 3) dot_S1024x512_S512x3_S1024x3_1_0_0_1_n_n rfl]
  refine Finset.sum_congr rfl fun h _ => ?_
  rw [truncf_apply, truncf_apply, tanh_at, addf_apply, bias1_at]
  congr 3
  rw [Cert.LibBlocks.matmul_plain_apply (M := 1024) (K := 1024) (N := 512) dot_S1024x1024_S1024x512_S1024x512_1_0_0_1_n_n rfl]
  refine Finset.sum_congr rfl fun k _ => ?_
  rw [truncf_apply, truncf_apply, flatten_at, mulf_apply, addf_apply, addf_apply, mulf_apply, onehot_at, row_spread,
    col_spread]

/-! ## The stored block over the point's input blocks -/

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- The masked block at (p, l, k): the input plus the one-hot sum of the table rows, times the validity float. -/
def masked (x0 : Vec Ideal S256x4x1024 .f32) (x1 : Vec Ideal S256x4 .i32) (x2 : Vec Ideal S256x4 .f32)
    (x3 : Vec Ideal S4x1024 .f32) (p : Fin 256) (l : Fin 4) (k : Fin 1024) : EReal :=
  (x0 (ix3 p l k) + ((((0 + oh (x1 (ix2 p l)) 0#32 * x3 (ix2 (0 : Fin 4) k)) + oh (x1 (ix2 p l)) 1#32 * x3 (ix2 (1 : Fin 4) k))
      + oh (x1 (ix2 p l)) 2#32 * x3 (ix2 (2 : Fin 4) k)) + oh (x1 (ix2 p l)) 3#32 * x3 (ix2 (3 : Fin 4) k))) * x2 (ix2 p l)

/-- THE STORED BLOCK at (p, l, o): the head formula over the block's masked positions. -/
theorem out_at (x0 : Vec Ideal S256x4x1024 .f32) (x1 : Vec Ideal S256x4 .i32) (x2 : Vec Ideal S256x4 .f32)
    (x3 : Vec Ideal S4x1024 .f32) (x4 : Vec Ideal S1024x512 .f32) (x5 : Vec Ideal S512 .f32) (x6 : Vec Ideal S512x3 .f32)
    (x7 : Vec Ideal S3 .f32) (p : Fin 256) (l : Fin 4) (o : Fin 3) :
    out0_8 (F := Ideal) x0 x1 x2 x3 x4 x5 x6 x7 (ix3 p l o)
      = (∑ h : Fin 512, Ideal.tanh ((∑ k : Fin 1024, masked x0 x1 x2 x3 p l k * x4 (ix2 k h)) + x5 (ix1 h)) * x6 (ix2 h o))
          + x7 (ix1 o) := by
  have t0 : ∀ k, View.ld x3 r0_2 (ix2 (0 : Fin 1) k) = x3 (ix2 (0 : Fin 4) k) :=
    fun k => table_row_at x3 0 inb_S4x1024_S1x1024_0_0 k
  have t1 : ∀ k, View.ld x3 r0_3 (ix2 (0 : Fin 1) k) = x3 (ix2 (1 : Fin 4) k) :=
    fun k => table_row_at x3 1 inb_S4x1024_S1x1024_1_0 k
  have t2 : ∀ k, View.ld x3 r0_4 (ix2 (0 : Fin 1) k) = x3 (ix2 (2 : Fin 4) k) :=
    fun k => table_row_at x3 2 inb_S4x1024_S1x1024_2_0 k
  have t3 : ∀ k, View.ld x3 r0_5 (ix2 (0 : Fin 1) k) = x3 (ix2 (3 : Fin 4) k) :=
    fun k => table_row_at x3 3 inb_S4x1024_S1x1024_3_0 k
  unfold out0_8
  rw [View.canon_unit_zero hz3]
  simp only [View.ld_unit_zero (S := S256x4x1024) hz3, View.ld_unit_zero (S := S256x4) hz2,
    View.ld_unit_zero (S := S1024x512) hz2, View.ld_unit_zero (S := S512x3) hz2, View.ld_unit_zero (S := S512) hz1,
    View.ld_unit_zero (S := S3) hz1]
  rw [pay1_at]
  simp only [pay4_at, t0, t1, t2, t3, k0_pay2, k0_pay3, shapeCast_self]
  rfl

end Cert.KernelIdeal.Block

end
-- ==== Proof.Mlp.lean ====
/-
  THE POSITION-WISE HEAD, AS ONE FUNCTION OF THE MASKED INPUT.

  From a masked input X : [16384, 4, 1024] both programs compute, independently at every position (b, l),

      hidden (b, l, h) = tanh( sum_k X (b, l, k) W1 (k, h) + b1 (h) ),        h < 512,
      head   (b, l, o) =       sum_h hidden (b, l, h) W2 (h, o) + b2 (o),     o < 3,

  on the extended reals.  One program does it as two host contractions over the whole array, the other block by
  block (256 rows of b at a time, the (b, l) pairs flattened to 1024 matrix rows) on the matrix unit; a sum on the
  extended reals does not depend on how it is grouped or ordered, so both are this function.
-/
import Idealize.ShloMosaic.PureOps.Ideal
import Idealize.ShloMosaic.Lib.ValueIdx

noncomputable section

open scoped BigOperators

namespace Cert.Mlp

open Idealize.ShloMosaic Idealize.ShloMosaic.ValueIdx

/-- The hidden layer at position (b, l), unit h. -/
def hidden (X : (⟨3, ![16384, 4, 1024]⟩ : Shape).Idx → EReal) (W1 : (⟨2, ![1024, 512]⟩ : Shape).Idx → EReal)
    (b1 : (⟨1, ![512]⟩ : Shape).Idx → EReal) (b : Fin 16384) (l : Fin 4) (h : Fin 512) : EReal :=
  Ideal.tanh ((∑ k : Fin 1024, X (ix3 b l k) * W1 (ix2 k h)) + b1 (ix1 h))

/-- The head at position (b, l), output o. -/
def head (X : (⟨3, ![16384, 4, 1024]⟩ : Shape).Idx → EReal) (W1 : (⟨2, ![1024, 512]⟩ : Shape).Idx → EReal)
    (b1 : (⟨1, ![512]⟩ : Shape).Idx → EReal) (W2 : (⟨2, ![512, 3]⟩ : Shape).Idx → EReal)
    (b2 : (⟨1, ![3]⟩ : Shape).Idx → EReal) (b : Fin 16384) (l : Fin 4) (o : Fin 3) : EReal :=
  (∑ h : Fin 512, hidden X W1 b1 b l h * W2 (ix2 h o)) + b2 (ix1 o)

end Cert.Mlp

end
-- ==== Proof.Spec.lean ====
/-
  THE WHOLE RESULT AS ONE FUNCTION OF THE ARGUMENT ARRAYS: the position-wise head of the masked input.
  Both programs end with their result array at this function (each with its own copy of the count of the row words).
-/
import proofs.«137504_j26121991094405_1_alg».proof.Proof.Mlp
import proofs.«137504_j26121991094405_1_alg».proof.Proof.Masked

noncomputable section

namespace Cert.Spec

open Idealize.ShloMosaic Idealize.ShloMosaic.ValueIdx

/-- result (b, l, o) = head of the masked input at (b, l), output o. -/
def result (cnt : (⟨2, ![16384, 4]⟩ : Shape).Idx → BitVec 32) (x : (⟨3, ![16384, 4, 1024]⟩ : Shape).Idx → EReal)
    (T : (⟨2, ![4, 1024]⟩ : Shape).Idx → EReal) (W1 : (⟨2, ![1024, 512]⟩ : Shape).Idx → EReal)
    (b1 : (⟨1, ![512]⟩ : Shape).Idx → EReal) (W2 : (⟨2, ![512, 3]⟩ : Shape).Idx → EReal)
    (b2 : (⟨1, ![3]⟩ : Shape).Idx → EReal) (wn : (⟨1, ![16384]⟩ : Shape).Idx → BitVec 32) :
    (⟨3, ![16384, 4, 3]⟩ : Shape).Idx → EReal := fun i =>
  Cert.Mlp.head (Cert.Masked.maskedInput cnt x T wn) W1 b1 W2 b2 (i 0) (i 1) (i 2)

end Cert.Spec

end
-- ==== Proof.KernelValue.lean ====
/-
  THE KERNEL'S RESULT ARRAY IS THE HEAD OF THE MASKED INPUT.

  Grid point t works on rows 256 t .. 256 t + 255 of the input: its blocks of the input, of the effective count and
  of the validity mask are those rows, the table, the two weight matrices and the two bias rows are whole.  What the
  point writes back (the stored block, read at (p, l, o) as the head over the block's masked positions) is therefore
  the head of the masked input at row 256 t + p: the one-hot sum times the validity float is the nested select of the
  masked input (Cert.RepeatRow.masked_add, which needs the count among 0, 1, 2, 3: Cert.CountWord).  The 64 blocks tile
  the result array, so the array after the run is that function everywhere.
-/
import proofs.«137504_j26121991094405_1_alg».proof.Proof.Gen.KernelIdeal.Value
import proofs.«137504_j26121991094405_1_alg».proof.Proof.KernelPrefix
import proofs.«137504_j26121991094405_1_alg».proof.Proof.KernelBlock
import proofs.«137504_j26121991094405_1_alg».proof.Proof.Spec
import proofs.«137504_j26121991094405_1_alg».proof.Proof.CountWord
import proofs.«137504_j26121991094405_1_alg».proof.Proof.RepeatRow

noncomputable section

open scoped BigOperators

namespace Cert.KernelIdeal.Result

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-! ## The index maps over the grid -/

/-- Decided over the 64 points: the three streamed windows and the result move one block of rows per point, the
    other windows stay. -/
theorem idx_facts : ∀ t : Fin cfg0.N,
    win0_8.index t (0 : Fin 3) = t.val ∧ win0_8.index t (1 : Fin 3) = 0 ∧ win0_8.index t (2 : Fin 3) = 0
    ∧ win0_0.index t (0 : Fin 3) = t.val ∧ win0_0.index t (1 : Fin 3) = 0 ∧ win0_0.index t (2 : Fin 3) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 1) = 0
    ∧ win0_6.index t (0 : Fin 2) = 0 ∧ win0_6.index t (1 : Fin 2) = 0
    ∧ win0_7.index t (0 : Fin 1) = 0 :=
  (by decide +kernel : ∀ t : Fin grid0.N, _)

theorem point_lt (t : Fin cfg0.N) : t.val < 64 := lt_of_lt_of_eq t.isLt N_0

/-- Array row 256 t + p of block t. -/
abbrev arow (t : Fin cfg0.N) (p : Fin 256) : Fin 16384 := ⟨256 * t.val + p.val, by have := point_lt t; omega⟩

/-! ## The point's input blocks, at their literal types, read off the arrays -/

abbrev blk0 (c : Dev nD) (t : Fin cfg0.N) : Vec Ideal S256x4x1024 .f32 := iblk m c 0 t
abbrev blk1 (c : Dev nD) (t : Fin cfg0.N) : Vec Ideal S256x4 .i32 := iblk m c 1 t
abbrev blk2 (c : Dev nD) (t : Fin cfg0.N) : Vec Ideal S256x4 .f32 := iblk m c 2 t
abbrev blk3 (c : Dev nD) (t : Fin cfg0.N) : Vec Ideal S4x1024 .f32 := iblk m c 3 t
abbrev blk4 (c : Dev nD) (t : Fin cfg0.N) : Vec Ideal S1024x512 .f32 := iblk m c 4 t
abbrev blk5 (c : Dev nD) (t : Fin cfg0.N) : Vec Ideal S512 .f32 := iblk m c 5 t
abbrev blk6 (c : Dev nD) (t : Fin cfg0.N) : Vec Ideal S512x3 .f32 := iblk m c 6 t
abbrev blk7 (c : Dev nD) (t : Fin cfg0.N) : Vec Ideal S3 .f32 := iblk m c 7 t

theorem blk0_at (c : Dev nD) (t : Fin cfg0.N) (p : Fin 256) (l : Fin 4) (k : Fin 1024) :
    blk0 m c t (ix3 p l k) = m ((c : Thread nD τ).loc main_arg0) (ix3 (arow t p) l k) := by
  obtain ⟨-, -, -, e0, e1, e2, -⟩ := idx_facts t
  show V m c main_arg0 (((cfg0.win 0).blk t).view.emb (ix3 p l k)) = _
  rw [V_main_arg0]
  refine congrArg _ (funext fun a => Fin.ext ?_)
  match a with
  | ⟨0, _⟩ => show win0_0.index t (0 : Fin 3) * 256 + 1 * p.val = 256 * t.val + p.val; omega
  | ⟨1, _⟩ => show win0_0.index t (1 : Fin 3) * 4 + 1 * l.val = l.val; omega
  | ⟨2, _⟩ => show win0_0.index t (2 : Fin 3) * 1024 + 1 * k.val = k.val; omega

theorem blk1_at (c : Dev nD) (t : Fin cfg0.N) (p : Fin 256) (l : Fin 4) :
    blk1 m c t (ix2 p l) = (V m c main_v14 : (⟨S16384x4, .i32⟩ : BufTy).Contents (Elt Ideal)) (ix2 (arow t p) l) := by
  obtain ⟨-, -, -, -, -, -, e0, e1, -⟩ := idx_facts t
  show V m c main_v14 (((cfg0.win 1).blk t).view.emb (ix2 p l)) = _
  refine congrArg _ (funext fun a => Fin.ext ?_)
  match a with
  | ⟨0, _⟩ => show win0_1.index t (0 : Fin 2) * 256 + 1 * p.val = 256 * t.val + p.val; omega
  | ⟨1, _⟩ => show win0_1.index t (1 : Fin 2) * 4 + 1 * l.val = l.val; omega

theorem blk2_at (c : Dev nD) (t : Fin cfg0.N) (p : Fin 256) (l : Fin 4) :
    blk2 m c t (ix2 p l) = (V m c main_v21 : (⟨S16384x4, .f32⟩ : BufTy).Contents (Elt Ideal)) (ix2 (arow t p) l) := by
  obtain ⟨-, -, -, -, -, -, -, -, e0, e1, -⟩ := idx_facts t
  show V m c main_v21 (((cfg0.win 2).blk t).view.emb (ix2 p l)) = _
  refine congrArg _ (funext fun a => Fin.ext ?_)
  match a with
  | ⟨0, _⟩ => show win0_2.index t (0 : Fin 2) * 256 + 1 * p.val = 256 * t.val + p.val; omega
  | ⟨1, _⟩ => show win0_2.index t (1 : Fin 2) * 4 + 1 * l.val = l.val; omega

theorem blk3_at (c : Dev nD) (t : Fin cfg0.N) (j : Fin 4) (k : Fin 1024) :
    blk3 m c t (ix2 j k) = m ((c : Thread nD τ).loc main_arg1) (ix2 j k) := by
  obtain ⟨-, -, -, -, -, -, -, -, -, -, e0, e1, -⟩ := idx_facts t
  show V m c main_arg1 (((cfg0.win 3).blk t).view.emb (ix2 j k)) = _
  rw [V_main_arg1]
  refine congrArg _ (funext fun a => Fin.ext ?_)
  match a with
  | ⟨0, _⟩ => show win0_3.index t (0 : Fin 2) * 4 + 1 * j.val = j.val; omega
  | ⟨1, _⟩ => show win0_3.index t (1 : Fin 2) * 1024 + 1 * k.val = k.val; omega

theorem blk4_at (c : Dev nD) (t : Fin cfg0.N) (k : Fin 1024) (h : Fin 512) :
    blk4 m c t (ix2 k h) = m ((c : Thread nD τ).loc main_arg2) (ix2 k h) := by
  obtain ⟨-, -, -, -, -, -, -, -, -, -, -, -, e0, e1, -⟩ := idx_facts t
  show V m c main_arg2 (((cfg0.win 4).blk t).view.emb (ix2 k h)) = _
  rw [V_main_arg2]
  refine congrArg _ (funext fun a => Fin.ext ?_)
  match a with
  | ⟨0, _⟩ => show win0_4.index t (0 : Fin 2) * 1024 + 1 * k.val = k.val; omega
  | ⟨1, _⟩ => show win0_4.index t (1 : Fin 2) * 512 + 1 * h.val = h.val; omega

theorem blk5_at (c : Dev nD) (t : Fin cfg0.N) (h : Fin 512) :
    blk5 m c t (ix1 h) = m ((c : Thread nD τ).loc main_arg3) (ix1 h) := by
  obtain ⟨-, -, -, -, -, -, -, -, -, -, -, -, -, -, e0, -⟩ := idx_facts t
  show V m c main_arg3 (((cfg0.win 5).blk t).view.emb (ix1 h)) = _
  rw [V_main_arg3]
  refine congrArg _ (funext fun a => Fin.ext ?_)
  match a with
  | ⟨0, _⟩ => show win0_5.index t (0 : Fin 1) * 512 + 1 * h.val = h.val; omega

theorem blk6_at (c : Dev nD) (t : Fin cfg0.N) (h : Fin 512) (o : Fin 3) :
    blk6 m c t (ix2 h o) = m ((c : Thread nD τ).loc main_arg4) (ix2 h o) := by
  obtain ⟨-, -, -, -, -, -, -, -, -, -, -, -, -, -, -, e0, e1, -⟩ := idx_facts t
  show V m c main_arg4 (((cfg0.win 6).blk t).view.emb (ix2 h o)) = _
  rw [V_main_arg4]
  refine congrArg _ (funext fun a => Fin.ext ?_)
  match a with
  | ⟨0, _⟩ => show win0_6.index t (0 : Fin 2) * 512 + 1 * h.val = h.val; omega
  | ⟨1, _⟩ => show win0_6.index t (1 : Fin 2) * 3 + 1 * o.val = o.val; omega

theorem blk7_at (c : Dev nD) (t : Fin cfg0.N) (o : Fin 3) :
    blk7 m c t (ix1 o) = m ((c : Thread nD τ).loc main_arg5) (ix1 o) := by
  obtain ⟨-, -, -, -, -, -, -, -, -, -, -, -, -, -, -, -, -, e0⟩ := idx_facts t
  show V m c main_arg5 (((cfg0.win 7).blk t).view.emb (ix1 o)) = _
  rw [V_main_arg5]
  refine congrArg _ (funext fun a => Fin.ext ?_)
  match a with
  | ⟨0, _⟩ => show win0_7.index t (0 : Fin 1) * 3 + 1 * o.val = o.val; omega

/-! ## The two computed operands at one position -/

/-- The effective count at (b, l): the count where positive, else -1. -/
theorem effcount_at (c : Dev nD) (b : Fin 16384) (l : Fin 4) :
    (V m c main_v14 : (⟨S16384x4, .i32⟩ : BufTy).Contents (Elt Ideal)) (ix2 b l)
      = Scalar.select (IntOp.cmpi .sgt (Prefix.count (m ((c : Thread nD τ).loc main_arg7)) (ix2 b l)) 0#32)
          (Prefix.count (m ((c : Thread nD τ).loc main_arg7)) (ix2 b l)) 4294967295#32 := by
  rw [Prefix.V_effcount]
  rfl

/-- The validity float at (b, l): 1 where l is below the row's length, else 0. -/
theorem validf_at (c : Dev nD) (b : Fin 16384) (l : Fin 4) :
    (V m c main_v21 : (⟨S16384x4, .f32⟩ : BufTy).Contents (Elt Ideal)) (ix2 b l)
      = (if IntOp.cmpi .slt (BitVec.ofNat 32 l.val) (m ((c : Thread nD τ).loc main_arg6) (ix1 b)) = 1#1 then (1 : EReal) else 0) := by
  rw [Prefix.V_valid, ← Cert.RepeatRow.bitFloat]
  show FloatOps.uitofp (F := Ideal) .f32 (IntOp.cmpi .slt _ _) = _
  rw [broadcastInDim_apply ![0, 1] bcast_S1x4_S16384x4_0_1 _ (ix2 b l) (ix2 (0 : Fin 1) l) (fun a => by
      match a with
      | ⟨0, _⟩ => rfl
      | ⟨1, _⟩ => rfl),
    broadcastInDim_apply ![1] bcast_S4_S1x4_1 _ (ix2 (0 : Fin 1) l) (ix1 l) (fun a => by
      match a with
      | ⟨0, _⟩ => rfl),
    broadcastInDim_apply ![0, 1] bcast_S16384x1_S16384x4_0_1 _ (ix2 b l) (ix2 b (0 : Fin 1)) (fun a => by
      match a with
      | ⟨0, _⟩ => rfl
      | ⟨1, _⟩ => rfl),
    broadcastInDim_apply ![0] bcast_S16384_S16384x1_0 _ (ix2 b (0 : Fin 1)) (ix1 b) (fun a => by
      match a with
      | ⟨0, _⟩ => rfl)]
  rfl

/-! ## What a point writes back -/

/-- The result array as one function of the argument arrays. -/
abbrev G (c : Dev nD) : S16384x4x3.Idx → EReal :=
  Cert.Spec.result (Prefix.count (m ((c : Thread nD τ).loc main_arg7))) (m ((c : Thread nD τ).loc main_arg0))
    (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6))

/-- The masked input at (b, l, k), written out. -/
theorem maskedInput_at (cnt : (⟨2, ![16384, 4]⟩ : Shape).Idx → BitVec 32) (x : (⟨3, ![16384, 4, 1024]⟩ : Shape).Idx → EReal)
    (T : (⟨2, ![4, 1024]⟩ : Shape).Idx → EReal) (wn : (⟨1, ![16384]⟩ : Shape).Idx → BitVec 32)
    (b : Fin 16384) (l : Fin 4) (k : Fin 1024) :
    Cert.Masked.maskedInput cnt x T wn (ix3 b l k)
      = Scalar.select (IntOp.cmpi .slt (BitVec.ofNat 32 l.val) (wn (ix1 b)))
          (x (ix3 b l k) + Scalar.select (IntOp.cmpi .sgt (cnt (ix2 b l)) 0#32) (T (ix2 (Cert.Masked.pick (cnt (ix2 b l))) k)) 0) 0 :=
  rfl

/-- The kernel's count at any position is one of the words 0, 1, 2, 3. -/
theorem count_cases (c : Dev nD) (b : Fin 16384) (l : Fin 4) :
    Prefix.count (m ((c : Thread nD τ).loc main_arg7)) (ix2 b l) = 0#32
      ∨ Prefix.count (m ((c : Thread nD τ).loc main_arg7)) (ix2 b l) = 1#32
      ∨ Prefix.count (m ((c : Thread nD τ).loc main_arg7)) (ix2 b l) = 2#32
      ∨ Prefix.count (m ((c : Thread nD τ).loc main_arg7)) (ix2 b l) = 3#32 :=
  Cert.CountWord.count_apply_cases bcast_S16384x4_S16384x4x1_0_1 bcast_S16384x4_S16384x1x4_0_2
    bcast_S16384x4x1_S16384x4x4_0_1_2 bcast_S16384x1x4_S16384x4x4_0_1_2 bcast_S_S4x4 bcast_S4x4_S1x4x4_1_2
    bcast_S1x4x4_S16384x4x4_0_1_2 natLt_1_32 reducesTo_S16384x4x4_S16384x4_d2 h_S_
    (m ((c : Thread nD τ).loc main_arg7)) b l

/-- The block's masked position (p, l), feature k, is the masked input at row 256 t + p. -/
theorem masked_blk (c : Dev nD) (t : Fin cfg0.N) (p : Fin 256) (l : Fin 4) (k : Fin 1024) :
    Block.masked (blk0 m c t) (blk1 m c t) (blk2 m c t) (blk3 m c t) p l k
      = Cert.Masked.maskedInput (Prefix.count (m ((c : Thread nD τ).loc main_arg7))) (m ((c : Thread nD τ).loc main_arg0))
          (m ((c : Thread nD τ).loc main_arg1)) (m ((c : Thread nD τ).loc main_arg6)) (ix3 (arow t p) l k) := by
  unfold Block.masked
  rw [blk0_at, blk1_at, blk2_at, blk3_at, blk3_at, blk3_at, blk3_at, effcount_at, validf_at, maskedInput_at]
  exact Cert.RepeatRow.masked_add (m ((c : Thread nD τ).loc main_arg0) (ix3 (arow t p) l k))
    (fun j => m ((c : Thread nD τ).loc main_arg1) (ix2 j k)) _ (count_cases m c (arow t p) l) _

/-- G at (b, l, o), written out. -/
theorem G_at (c : Dev nD) (b : Fin 16384) (l : Fin 4) (o : Fin 3) :
    G m c (ix3 b l o)
      = (∑ h : Fin 512, Ideal.tanh ((∑ k : Fin 1024,
            Cert.Masked.maskedInput (Prefix.count (m ((c : Thread nD τ).loc main_arg7))) (m ((c : Thread nD τ).loc main_arg0))
                (m ((c : Thread nD τ).loc main_arg1)) (m ((c : Thread nD τ).loc main_arg6)) (ix3 b l k)
              * m ((c : Thread nD τ).loc main_arg2) (ix2 k h)) + m ((c : Thread nD τ).loc main_arg3) (ix1 h))
            * m ((c : Thread nD τ).loc main_arg4) (ix2 h o)) + m ((c : Thread nD τ).loc main_arg5) (ix1 o) :=
  rfl

/-- WHAT POINT t WRITES BACK is block t of G. -/
theorem flushed_eq (c : Dev nD) (t : Fin cfg0.N) :
    (dats m 0 c).flushed 8 t = ((cfg0.win 8).blk t).view.read (Elt Ideal) (G m c) := by
  rw [Value.flushed8]
  obtain ⟨e0, e1, e2, -⟩ := idx_facts t
  funext y
  obtain ⟨p, l, o, rfl⟩ : ∃ (p : Fin 256) (l : Fin 4) (o : Fin 3), y = ix3 p l o := ⟨y 0, y 1, y 2, eq_ix3 y⟩
  show out0_8 (blk0 m c t) (blk1 m c t) (blk2 m c t) (blk3 m c t) (blk4 m c t) (blk5 m c t) (blk6 m c t) (blk7 m c t) (ix3 p l o)
    = G m c (((cfg0.win 8).blk t).view.emb (ix3 p l o))
  have he : ((cfg0.win 8).blk t).view.emb (ix3 p l o) = ix3 (arow t p) l o := by
    funext a; apply Fin.ext
    match a with
    | ⟨0, _⟩ => show win0_8.index t (0 : Fin 3) * 256 + 1 * p.val = 256 * t.val + p.val; omega
    | ⟨1, _⟩ => show win0_8.index t (1 : Fin 3) * 4 + 1 * l.val = l.val; omega
    | ⟨2, _⟩ => show win0_8.index t (2 : Fin 3) * 3 + 1 * o.val = o.val; omega
  rw [he, Block.out_at (blk0 m c t) (blk1 m c t) (blk2 m c t) (blk3 m c t) (blk4 m c t) (blk5 m c t) (blk6 m c t)
    (blk7 m c t) p l o, G_at, blk7_at]
  refine congrArg (· + _) (Finset.sum_congr rfl fun h _ => ?_)
  rw [blk5_at, blk6_at]
  refine congrArg (fun s => Ideal.tanh (s + _) * _) (Finset.sum_congr rfl fun k _ => ?_)
  rw [masked_blk, blk4_at]

/-! ## The whole array -/

theorem mem_blk (t : Fin cfg0.N) (i : S16384x4x3.Idx) :
    i ∈ ((cfg0.win 8).blk t).view.set ↔ ∀ a : Fin 3, win0_8.index t a * S256x4x3.size a ≤ (i a).val
      ∧ (i a).val < win0_8.index t a * S256x4x3.size a + S256x4x3.size a := by
  show i ∈ ((View.whole main_v22).slice (win0_8.rect t)).set ↔ _
  rw [View.set_slice_whole, Rect.mem_set_unit]
  exact Iff.rfl

/-- Every index of the result array lies in the block of the point that holds its row. -/
theorem cover (i : S16384x4x3.Idx) :
    ∃ t : Fin cfg0.N, (cfg0.win 8).flush t = true ∧ i ∈ ((cfg0.win 8).blk t).view.set := by
  have hi0 : (i 0).val < 16384 := (i 0).isLt
  have hi1 : (i 1).val < 4 := (i 1).isLt
  have hi2 : (i 2).val < 3 := (i 2).isLt
  let t : Fin cfg0.N := ⟨(i 0).val / 256, lt_of_lt_of_eq (by omega : (i 0).val / 256 < 64) N_0.symm⟩
  obtain ⟨e0, e1, e2, -⟩ := idx_facts t
  have et : t.val = (i 0).val / 256 := rfl
  refine ⟨t, flush0_8 t, ?_⟩
  rw [mem_blk]
  intro a
  match a with
  | ⟨0, _⟩ =>
    show win0_8.index t (0 : Fin 3) * 256 ≤ (i 0).val ∧ (i 0).val < win0_8.index t (0 : Fin 3) * 256 + 256
    omega
  | ⟨1, _⟩ =>
    show win0_8.index t (1 : Fin 3) * 4 ≤ (i 1).val ∧ (i 1).val < win0_8.index t (1 : Fin 3) * 4 + 4
    omega
  | ⟨2, _⟩ =>
    show win0_8.index t (2 : Fin 3) * 3 ≤ (i 2).val ∧ (i 2).val < win0_8.index t (2 : Fin 3) * 3 + 3
    omega

/-- THE ARRAY after the run. -/
theorem final (c : Dev nD) : (dats m 0 c).arrAt 8 cfg0.N = G m c :=
  (dats m 0 c).arrAt_eq_of_cover 8 (G m c) (fun t _ => flushed_eq m c t) cover

/-- The kernel's run: the result array at G of the argument arrays, the arguments unchanged. -/
theorem run : θ_run defs (onTc (τ := τ) (main (F := Ideal))) ⟨m, fun _ => 0, ρ⟩ fun r => ∀ c : Dev nD,
      r.2.mem ((c : Thread nD τ).loc main_v22) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩) (Value.run_blocks m ρ)

end Cert.KernelIdeal.Result

end
-- ==== Proof.LibRowLookup.lean ====
/-
  A TABLE OF ROWS LOOKED UP BY A TWO-AXIS ARRAY OF INDICES, READ AT ONE ELEMENT.

  `table[idx]` of a table of rows [N, D] at an integer array idx : [A, B] lowers to a gather with offset_dims [2],
  collapsed_slice_dims [0], start_index_map [0], slice_sizes [1, D] and index_vector_dim 2 over the indices held as
  [A, B, 1]; the result is [A, B, D].  Element (a, b, k) of the result is the table at row idx[a, b, 0] — read as a
  signed integer and clamped into [0, N - 1], as every gather clamps its start indices — and column k
  (gatherRows_apply).  Generic in the extents and in the width of the index words; a program's dimension numbers enter
  through an equation with the record rowDims.
-/
import Idealize.ShloMosaic.PureOps.ShapeOps
import Idealize.ShloMosaic.Lib.ValueIdx

noncomputable section

namespace Cert.LibRowLookup

open Idealize.ShloMosaic Idealize.ShloMosaic.ValueIdx

variable {α : Type}

private theorem one_ne_zero2 : ¬ (1 : Fin 2) = 0 := by decide

/-- Those dimension numbers for a table [N, D], start indices [A, B, 1] and a result [A, B, D]; their conditions
    are decided on a program's literal shapes. -/
abbrev rowDims (N D A B : Nat)
    (wf : GatherDims.WF ⟨2, ![N, D]⟩ ⟨3, ![A, B, 1]⟩ ⟨3, ![A, B, D]⟩ [2] [0] [] [0] [] 2 ![1, D]) :
    GatherDims ⟨2, ![N, D]⟩ ⟨3, ![A, B, 1]⟩ ⟨3, ![A, B, D]⟩ where
  offsetDims := [2]
  collapsedSliceDims := [0]
  operandBatchingDims := []
  startIndicesBatchingDims := []
  startIndexMap := [0]
  indexVectorDim := 2
  sliceSizes := ![1, D]
  wf := wf

/-- THE LOOKUP READ AT (a, b, k): the table at the row idx[a, b, 0], read signed and clamped into [0, N - 1], and
    column k. -/
theorem gatherRows_apply {N D A B w : Nat} (hN : 0 < N)
    (wf : GatherDims.WF ⟨2, ![N, D]⟩ ⟨3, ![A, B, 1]⟩ ⟨3, ![A, B, D]⟩ [2] [0] [] [0] [] 2 ![1, D])
    (x : (⟨2, ![N, D]⟩ : Shape).Idx → α) (idx : IVec ⟨3, ![A, B, 1]⟩ w) (a : Fin A) (b : Fin B) (k : Fin D) :
    Host.gather (rowDims N D A B wf) x idx (ix3 a b k)
      = x (ix2 (⟨min (idx (ix3 a b (⟨0, Nat.one_pos⟩ : Fin 1))).toInt.toNat (N - 1),
          lt_of_le_of_lt (Nat.min_le_right _ _) (Nat.sub_lt hN Nat.one_pos)⟩ : Fin N) k) := by
  unfold Host.gather
  congr 1
  funext c
  refine Fin.ext ?_
  match c with
  | ⟨0, _⟩ =>
    show (rowDims N D A B wf).start (ix3 a b k) idx 0 + (rowDims N D A B wf).batchCoord (ix3 a b k) 0
        + (rowDims N D A B wf).offCoord (ix3 a b k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N D A B wf).startIndexMap from List.mem_singleton.mpr rfl)]
    have hsi : (rowDims N D A B wf).siIdx (ix3 a b k) ⟨List.idxOf (0 : Fin 2) (rowDims N D A B wf).startIndexMap,
        List.idxOf_lt_length_iff.2 (List.mem_singleton.mpr rfl)⟩ = ix3 a b (⟨0, Nat.one_pos⟩ : Fin 1) := by
      funext e; refine Fin.ext ?_
      match e with
      | ⟨0, _⟩ => rfl
      | ⟨1, _⟩ => rfl
      | ⟨2, _⟩ => rfl
    rw [hsi]
    rfl
  | ⟨1, _⟩ =>
    show (rowDims N D A B wf).start (ix3 a b k) idx 1 + (rowDims N D A B wf).batchCoord (ix3 a b k) 1
        + (rowDims N D A B wf).offCoord (ix3 a b k) 1 = k.val
    rw [GatherDims.batchCoord_eq_zero _ _ _ List.not_mem_nil]
    unfold GatherDims.start
    rw [dif_neg (show ¬ (1 : Fin 2) ∈ (rowDims N D A B wf).startIndexMap from
      fun h => absurd (List.mem_singleton.mp h) one_ne_zero2)]
    unfold GatherDims.offCoord
    rw [dif_pos (show (1 : Fin 2) ∈ (rowDims N D A B wf).sKept from
      (GatherDims.mem_sKept _ _).mpr ⟨fun h => absurd (List.mem_singleton.mp h) one_ne_zero2, List.not_mem_nil⟩)]
    simp only [Nat.zero_add, Nat.add_zero]
    rfl

/-- The same for any record with those dimension numbers (a program's own record: its fields are these by `rfl`). -/
theorem gatherRows_apply_of {N D A B w : Nat} (hN : 0 < N)
    (d : GatherDims ⟨2, ![N, D]⟩ ⟨3, ![A, B, 1]⟩ ⟨3, ![A, B, D]⟩)
    (h1 : d.offsetDims = [2]) (h2 : d.collapsedSliceDims = [0]) (h3 : d.operandBatchingDims = [])
    (h4 : d.startIndicesBatchingDims = []) (h5 : d.startIndexMap = [0]) (h6 : d.indexVectorDim = 2)
    (h7 : d.sliceSizes = ![1, D])
    (x : (⟨2, ![N, D]⟩ : Shape).Idx → α) (idx : IVec ⟨3, ![A, B, 1]⟩ w) (a : Fin A) (b : Fin B) (k : Fin D) :
    Host.gather d x idx (ix3 a b k)
      = x (ix2 (⟨min (idx (ix3 a b (⟨0, Nat.one_pos⟩ : Fin 1))).toInt.toNat (N - 1),
          lt_of_le_of_lt (Nat.min_le_right _ _) (Nat.sub_lt hN Nat.one_pos)⟩ : Fin N) k) := by
  obtain ⟨od, cd, ob, sb, sm, iv, ss, wf⟩ := d
  simp only at h1 h2 h3 h4 h5 h6 h7
  subst h1 h2 h3 h4 h5 h6 h7
  exact gatherRows_apply hN wf x idx a b k

end Cert.LibRowLookup

end
-- ==== Proof.RefValue.lean ====
/-
  THE REFERENCE'S RESULT, INDEX BY INDEX.

  The reference masks its input once — at position (b, l) and feature k it keeps  x (b, l, k) + add  where
  l < wn[b], else 0, with  add = table (count[b, l], k)  when the repeat count is positive, else 0 (the lookup clamps
  its row into the table, and wraps a negative index first) — and then applies the position-wise head
  (Cert.Mlp.head) as two host contractions.  Here each stage the generated read-at-an-index lemmas do not open
  (the count's reduction, the table lookup) is read by hand, and the whole result is stated as  head  of the masked
  input.
-/
import proofs.«137504_j26121991094405_1_alg».proof.Proof.RefReadP
import proofs.«137504_j26121991094405_1_alg».proof.Proof.CountWord
import proofs.«137504_j26121991094405_1_alg».proof.Proof.LibRowLookup
import proofs.«137504_j26121991094405_1_alg».proof.Proof.Mlp
import proofs.«137504_j26121991094405_1_alg».proof.Proof.Masked

noncomputable section

open scoped BigOperators

namespace Cert.ReferenceIdeal.RefValue

open Cert.ReferenceIdeal Cert.ReferenceIdeal.ReadP Cert.ReferenceIdeal.Facts₀ Idealize.ShloMosaic
  Idealize.ShloMosaic.ValueIdx

/-- The reference's count array is the shared count of the row words. -/
theorem count_eq (x7 : (⟨S16384x4, .i32⟩ : BufTy).Contents (Elt Ideal)) :
    val_main_v11 (F := Ideal) x7
      = Cert.CountWord.count bcast_S16384x4_S16384x4x1_0_1 bcast_S16384x4_S16384x1x4_0_2 bcast_S16384x4x1_S16384x4x4_0_1_2
          bcast_S16384x1x4_S16384x4x4_0_1_2 bcast_S_S4x4 bcast_S4x4_S1x4x4_1_2 bcast_S1x4x4_S16384x4x4_0_1_2 natLt_1_32
          reducesTo_S16384x4x4_S16384x4_d2 h_S_ x7 := rfl

/-- The validity bit at (b, l): the position is below the row's length, as signed words. -/
theorem valid_at (x6 : (⟨S16384, .i32⟩ : BufTy).Contents (Elt Ideal)) (b : Fin 16384) (l : Fin 4) :
    val_main_v28 (F := Ideal) x6 (ix2 b l) = IntOp.cmpi .slt (BitVec.ofNat 32 l.val) (x6 (ix1 b)) := by
  have e : idx_main_v25 (idx_main_v27 (ix2 b l)) = ix1 b := funext fun a => by
    match a with
    | ⟨0, _⟩ => rfl
  rw [val_main_v28_apply, val_main_v26_apply, val_main_v24_apply, val_main_v23_apply, val_main_v27_apply,
    val_main_v25_apply, e]

/-- The table lookup at (b, l, k): the table's row at the count (wrapped if negative, then clamped into the four
    rows), column k. -/
theorem lookup_at (x1 : (⟨S4x1024, .f32⟩ : BufTy).Contents (Elt Ideal)) (x7 : (⟨S16384x4, .i32⟩ : BufTy).Contents (Elt Ideal))
    (b : Fin 16384) (l : Fin 4) (k : Fin 1024) :
    val_main_v21 (F := Ideal) x1 x7 (ix3 b l k)
      = x1 (ix2 (Cert.Masked.pick (val_main_v11 (F := Ideal) x7 (ix2 b l))) k) := by
  have e : idx_main_v20 (ix3 b l (⟨0, Nat.one_pos⟩ : Fin 1)) = ix2 b l := funext fun a => by
    match a with
    | ⟨0, _⟩ => rfl
    | ⟨1, _⟩ => rfl
  have hg := Cert.LibRowLookup.gatherRows_apply_of (N := 4) (D := 1024) (A := 16384) (B := 4) (w := 32) (Nat.succ_pos 3)
    gather_S4x1024_S16384x4x1_S16384x4x1024_2_0_n_n_0_2_11024 rfl rfl rfl rfl rfl rfl rfl x1 (val_main_v20 (F := Ideal) x7) b l k
  unfold val_main_v21
  refine hg.trans (congrArg (fun j : Fin 4 => x1 (ix2 j k)) (Fin.ext ?_))
  show min (val_main_v20 (F := Ideal) x7 (ix3 b l (⟨0, Nat.one_pos⟩ : Fin 1))).toInt.toNat (4 - 1)
    = min (Scalar.select (IntOp.cmpi .slt (val_main_v11 (F := Ideal) x7 (ix2 b l)) 0#32)
        (IntOp.addi (val_main_v11 (F := Ideal) x7 (ix2 b l)) 4#32) (val_main_v11 (F := Ideal) x7 (ix2 b l))).toInt.toNat 3
  rw [val_main_v20_apply, e, val_main_v19_apply, val_main_v16_apply, val_main_v18_apply, val_main_v15_apply,
    val_main_c_2_apply, val_main_v17_apply, val_main_c_3_apply]

/-- THE MASKED INPUT at (b, l, k). -/
theorem masked_at (x0 : (⟨S16384x4x1024, .f32⟩ : BufTy).Contents (Elt Ideal)) (x1 : (⟨S4x1024, .f32⟩ : BufTy).Contents (Elt Ideal))
    (x6 : (⟨S16384, .i32⟩ : BufTy).Contents (Elt Ideal)) (x7 : (⟨S16384x4, .i32⟩ : BufTy).Contents (Elt Ideal))
    (b : Fin 16384) (l : Fin 4) (k : Fin 1024) :
    val_main_v31 (F := Ideal) x0 x1 x6 x7 (ix3 b l k)
      = Cert.Masked.maskedInput (val_main_v11 (F := Ideal) x7) x0 x1 x6 (ix3 b l k) := by
  have e1 : idx_main_v29 (idx_main_call2_v1 (ix3 b l k)) = ix2 b l := funext fun a => by
    match a with
    | ⟨0, _⟩ => rfl
    | ⟨1, _⟩ => rfl
  have e2 : idx_main_v14 (idx_main_call1_v1 (ix3 b l k)) = ix2 b l := funext fun a => by
    match a with
    | ⟨0, _⟩ => rfl
    | ⟨1, _⟩ => rfl
  rw [val_main_v31_apply, val_main_call2_v1_apply, val_main_v29_apply, e1, valid_at, val_main_v30_apply,
    val_main_v22_apply, val_main_call1_v1_apply, val_main_v14_apply, e2, val_main_v13_apply, val_main_v12_apply,
    val_main_c_1_apply, lookup_at, val_main_call1_v2_apply, val_main_call1_v0_apply, val_main_cst_apply,
    val_main_call2_v2_apply, val_main_call2_v0_apply, val_main_cst_4_apply]
  show Scalar.select _ (_ + Scalar.select _ _ (Ideal.ofBits .f32 0x00000000#32)) (Ideal.ofBits .f32 0x00000000#32) = _
  rw [Ideal.ofBits_zero_f32]
  rfl

/-- THE RESULT at (b, l, o): the head of the masked input. -/
theorem result_at (x0 : (⟨S16384x4x1024, .f32⟩ : BufTy).Contents (Elt Ideal)) (x1 : (⟨S4x1024, .f32⟩ : BufTy).Contents (Elt Ideal))
    (x2 : (⟨S1024x512, .f32⟩ : BufTy).Contents (Elt Ideal)) (x3 : (⟨S512, .f32⟩ : BufTy).Contents (Elt Ideal))
    (x4 : (⟨S512x3, .f32⟩ : BufTy).Contents (Elt Ideal)) (x5 : (⟨S3, .f32⟩ : BufTy).Contents (Elt Ideal))
    (x6 : (⟨S16384, .i32⟩ : BufTy).Contents (Elt Ideal)) (x7 : (⟨S16384x4, .i32⟩ : BufTy).Contents (Elt Ideal))
    (b : Fin 16384) (l : Fin 4) (o : Fin 3) :
    val_main_v40 (F := Ideal) x0 x1 x2 x3 x4 x5 x6 x7 (ix3 b l o)
      = Cert.Mlp.head (val_main_v31 (F := Ideal) x0 x1 x6 x7) x2 x3 x4 x5 b l o := by
  have eb2 : idx_main_v38 (idx_main_v39 (ix3 b l o)) = ix1 o := funext fun a => by
    match a with
    | ⟨0, _⟩ => rfl
  have er2 : ∀ h : Fin 512, ridx_main_v37 (ix3 b l o) h = ix2 h o := fun h => funext fun a => by
    match a with
    | ⟨0, _⟩ => rfl
    | ⟨1, _⟩ => rfl
  have eb1 : ∀ h : Fin 512, idx_main_v33 (idx_main_v34 (lidx_main_v37 (ix3 b l o) h)) = ix1 h := fun h => funext fun a => by
    match a with
    | ⟨0, _⟩ => rfl
  have el1 : ∀ (h : Fin 512) (k : Fin 1024), lidx_main_v32 (lidx_main_v37 (ix3 b l o) h) k = ix3 b l k := fun h k =>
    funext fun a => by
      match a with
      | ⟨0, _⟩ => rfl
      | ⟨1, _⟩ => rfl
      | ⟨2, _⟩ => rfl
  have er1 : ∀ (h : Fin 512) (k : Fin 1024), ridx_main_v32 (lidx_main_v37 (ix3 b l o) h) k = ix2 k h := fun h k =>
    funext fun a => by
      match a with
      | ⟨0, _⟩ => rfl
      | ⟨1, _⟩ => rfl
  rw [val_main_v40_apply, val_main_v37_apply, val_main_v39_apply, val_main_v38_apply, eb2]
  unfold Cert.Mlp.head
  show (∑ h : Fin 512, _) + x5 (ix1 o) = _
  congr 1
  refine Finset.sum_congr rfl fun h _ => ?_
  rw [er2 h, val_main_v36_apply, val_main_v35_apply, val_main_v32_apply, val_main_v34_apply, val_main_v33_apply, eb1 h]
  unfold Cert.Mlp.hidden
  show Ideal.tanh ((∑ k : Fin 1024, _) + x3 (ix1 h)) * _ = _
  congr 3
  refine Finset.sum_congr rfl fun k _ => ?_
  rw [el1 h k, er1 h k]

end Cert.ReferenceIdeal.RefValue

end
-- ==== Proof.RefResult.lean ====
/-
  THE REFERENCE'S RUN, ITS RESULT STATED AS THE SHARED FUNCTION.

  Every element of the reference's result array is the head of the masked input (Cert.Spec.result over the
  reference's own count of the row words); so every weakly fair execution of the reference ends with its result
  array at that function of the arguments, the arguments unchanged.
-/
import proofs.«137504_j26121991094405_1_alg».proof.Proof.RefValue
import proofs.«137504_j26121991094405_1_alg».proof.Proof.Spec

noncomputable section

namespace Cert.ReferenceIdeal.RefValue

open Cert.ReferenceIdeal Cert.ReferenceIdeal.ReadP Idealize.ShloMosaic Idealize.ShloMosaic.TcCoe Idealize.SL.Sem
open Idealize.ShloMosaic.ValueIdx

/-- The reference's masked input array is the shared one. -/
theorem masked_eq (x0 : (⟨S16384x4x1024, .f32⟩ : BufTy).Contents (Elt Ideal)) (x1 : (⟨S4x1024, .f32⟩ : BufTy).Contents (Elt Ideal))
    (x6 : (⟨S16384, .i32⟩ : BufTy).Contents (Elt Ideal)) (x7 : (⟨S16384x4, .i32⟩ : BufTy).Contents (Elt Ideal)) :
    val_main_v31 (F := Ideal) x0 x1 x6 x7 = Cert.Masked.maskedInput (val_main_v11 (F := Ideal) x7) x0 x1 x6 :=
  funext fun j => by
    obtain ⟨b, l, k, rfl⟩ : ∃ (b : Fin 16384) (l : Fin 4) (k : Fin 1024), j = ix3 b l k := ⟨j 0, j 1, j 2, eq_ix3 j⟩
    exact masked_at x0 x1 x6 x7 b l k

/-- The reference's result array is the head of the masked input. -/
theorem result_eq (x0 : (⟨S16384x4x1024, .f32⟩ : BufTy).Contents (Elt Ideal)) (x1 : (⟨S4x1024, .f32⟩ : BufTy).Contents (Elt Ideal))
    (x2 : (⟨S1024x512, .f32⟩ : BufTy).Contents (Elt Ideal)) (x3 : (⟨S512, .f32⟩ : BufTy).Contents (Elt Ideal))
    (x4 : (⟨S512x3, .f32⟩ : BufTy).Contents (Elt Ideal)) (x5 : (⟨S3, .f32⟩ : BufTy).Contents (Elt Ideal))
    (x6 : (⟨S16384, .i32⟩ : BufTy).Contents (Elt Ideal)) (x7 : (⟨S16384x4, .i32⟩ : BufTy).Contents (Elt Ideal)) :
    val_main_v40 (F := Ideal) x0 x1 x2 x3 x4 x5 x6 x7
      = Cert.Spec.result (val_main_v11 (F := Ideal) x7) x0 x1 x2 x3 x4 x5 x6 :=
  funext fun i => by
    obtain ⟨b, l, o, rfl⟩ : ∃ (b : Fin 16384) (l : Fin 4) (o : Fin 3), i = ix3 b l o := ⟨i 0, i 1, i 2, eq_ix3 i⟩
    rw [result_at, masked_eq]
    rfl

/-- The reference's run: its result array at the shared function of the arguments, the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v40)
        = Cert.Spec.result (val_main_v11 (F := Ideal) (m ((c.tc : Thread nD τ).loc main_arg7)))
            (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c).1.trans ((val_main_v40_eq (F := Ideal) m c).trans (result_eq _ _ _ _ _ _ _ _)), (h c).2⟩)
    (Cert.ReferenceIdeal.ValueP.run (F := Ideal) m ρ)

end Cert.ReferenceIdeal.RefValue

end
-- ==== Proof.lean ====
/-
  THE CERTIFICATE: a position-wise two-layer head over a masked, repeat-augmented input, block by block on the matrix
  unit, against the same computation written as whole-array host operations.

  Inputs: wenc_hs [16384, 4, 1024], a table repeat [4, 1024], the layers W1 [1024, 512], b1 [512], W2 [512, 3],
  b2 [3], the row lengths wn [16384] and the row words wc [16384, 4].  Both programs first count, for every position
  (b, l), the earlier positions of row b holding the same word (a count among 0, 1, 2, 3: Proof/CountWord.lean), add the
  table row the count selects when it is positive, zero the positions at or past the row's length, and then apply
      tanh(x W1 + b1) W2 + b2
  independently at every position (Proof/Mlp.lean, Proof/Masked.lean, Proof/Spec.lean).

  They differ in how:  the reference looks the table row up by a gather and masks with selects, as whole-array host
  operations (Proof/RefValue.lean, Proof/RefResult.lean, over the generated read-at-an-index lemmas);  the kernel
  receives the count (as -1 where it is zero) and the validity as a 0/1 float from host operations before its one
  region (Proof/KernelPrefix.lean), and in each of its 64 grid points builds the added row as a sum of four one-hot
  products, masks by multiplication, flattens its 1024 positions to matrix rows and runs both layers on the matrix
  unit into zero accumulators, narrowing the operands to bf16 on the way in (Proof/KernelBlock.lean,
  Proof/KernelValue.lean).  On the extended reals a change of float format is the identity, a sum does not depend on
  its grouping, and 0 * t = 0, 1 * t = t for every t, so a one-hot sum is the selected row and a product with a 0/1
  float is a select (Proof/RepeatRow.lean): no hypothesis on the float inputs is used.  What is used is that the
  count never exceeds 3, which keeps the gather's clamped row the one-hot sum's row.

  The three frames: the kernel's two are the generated frame certificates; the reference's is its run with the result
  dropped.  The ideal pass rewrote nothing, so the preservation claim is trivial.
-/
import proofs.«137504_j26121991094405_1_alg».proof.Defs
import proofs.«137504_j26121991094405_1_alg».proof.Proof.Gen.Kernel
import proofs.«137504_j26121991094405_1_alg».proof.Proof.Gen.Kernel.Skeleton
import proofs.«137504_j26121991094405_1_alg».proof.Proof.Gen.Kernel.Launch
import proofs.«137504_j26121991094405_1_alg».proof.Proof.Gen.Kernel.Points
import proofs.«137504_j26121991094405_1_alg».proof.Proof.Gen.Kernel.Frame
import proofs.«137504_j26121991094405_1_alg».proof.Proof.Gen.KernelIdeal
import proofs.«137504_j26121991094405_1_alg».proof.Proof.Gen.KernelIdeal.Skeleton
import proofs.«137504_j26121991094405_1_alg».proof.Proof.Gen.KernelIdeal.Launch
import proofs.«137504_j26121991094405_1_alg».proof.Proof.Gen.KernelIdeal.Points
import proofs.«137504_j26121991094405_1_alg».proof.Proof.Gen.KernelIdeal.Frame
import proofs.«137504_j26121991094405_1_alg».proof.Proof.Gen.ReferenceIdeal
import proofs.«137504_j26121991094405_1_alg».proof.Proof.Gen.Pre_finite_inputs
import proofs.«137504_j26121991094405_1_alg».proof.Proof.Gen.KernelIdeal.Value
import proofs.«137504_j26121991094405_1_alg».proof.Proof.KernelValue
import proofs.«137504_j26121991094405_1_alg».proof.Proof.RefResult
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- From memories agreeing on the arguments both programs end with their result arrays at the head of the masked
    input of those arguments: the kernel's array block by block (Cert.KernelIdeal.Result.run), the reference's index by
    index (Cert.ReferenceIdeal.RefValue.run).  The two counts of the row words are one term up to the proofs of the
    shape facts each program states. -/
theorem algebraic : Cert.algebraic_KernelIdeal_ReferenceIdeal := by
  intro m ρ m' ρ' _ hagree
  refine ⟨fun c => Cert.KernelIdeal.Result.G m c, Cert.KernelIdeal.Result.run m ρ, ?_⟩
  refine (θ_run Cert.ReferenceIdeal.defs _ _).mono (fun _ h c => ⟨(h c).1.trans ?_, (h c).2⟩)
    (Cert.ReferenceIdeal.RefValue.run m' ρ')
  obtain ⟨h0, h1, h2, h3, h4, h5, h6, h7⟩ := hagree c
  rw [h0, h1, h2, h3, h4, h5, h6, h7]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
